-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x20 : Shape := ⟨2, ![2097152, 20]⟩
abbrev S2097152 : Shape := ⟨1, ![2097152]⟩
abbrev S20 : Shape := ⟨1, ![20]⟩
abbrev S_ : Shape := ⟨0, ![]⟩

class Facts : Prop where
  bcast_S_S2097152x20 : S_.BroadcastsInDim S2097152x20 (![] : Fin 0 → Fin S2097152x20.rank)
  reducesTo_S2097152x20_S_d0_1 : S2097152x20.ReducesTo [0, 1] S_
  h_S_ : 0 < S_.numel
  bcast_S_S2097152 : S_.BroadcastsInDim S2097152 (![] : Fin 0 → Fin S2097152.rank)
  reducesTo_S2097152_S_d0 : S2097152.ReducesTo [0] S_
  bcast_S_S20 : S_.BroadcastsInDim S20 (![] : Fin 0 → Fin S20.rank)
  reducesTo_S20_S_d0 : S20.ReducesTo [0] S_

variable [Facts]

def fn_part2 {F : FTy → Type} [FloatOps F] (main_arg6 : IVec S2097152 32) (main_v32 : IVec S_ 1) (main_c_12 : IVec S_ 32) : IVec S_ 1 :=
  let main_v33 : IVec S2097152 32 := broadcastInDim S2097152 ![] bcast_S_S2097152 main_c_12
  let main_v34 : IVec S2097152 1 := cmpi .slt main_arg6 main_v33
  let main_c_13 : IVec S_ 1 := constantI S_ 1 1#1
  let main_v35 : IVec S_ 1 := (fun x v => Host.reduce IntOp.andi x v reducesTo_S2097152_S_d0 h_S_) main_v34 main_c_13
  let main_v36 : IVec S_ 1 := andi main_v32 main_v35
  main_v36

def fn_part1 {F : FTy → Type} [FloatOps F] (main_arg4 : FVec F S20 .f32) (main_arg5 : FVec F S20 .f32) (main_arg6 : IVec S2097152 32) (main_v13 : IVec S_ 1) (main_v16 : IVec S20 1) : IVec S_ 1 :=
  let main_c_5 : IVec S_ 1 := constantI S_ 1 1#1
  let main_v17 : IVec S_ 1 := (fun x v => Host.reduce IntOp.andi x v reducesTo_S20_S_d0 h_S_) main_v16 main_c_5
  let main_v18 : IVec S_ 1 := andi main_v13 main_v17
  let main_v19 : FVec F S20 .f32 := Host.absf main_arg4
  let main_cst_6 : FVec F S_ .f32 := constant S_ .f32 0x7F800000#32
  let main_v20 : FVec F S20 .f32 := broadcastInDim S20 ![] bcast_S_S20 main_cst_6
  let main_v21 : IVec S20 1 := cmpf .olt main_v19 main_v20
  let main_c_7 : IVec S_ 1 := constantI S_ 1 1#1
  let main_v22 : IVec S_ 1 := (fun x v => Host.reduce IntOp.andi x v reducesTo_S20_S_d0 h_S_) main_v21 main_c_7
  let main_v23 : IVec S_ 1 := andi main_v18 main_v22
  let main_v24 : FVec F S20 .f32 := Host.absf main_arg5
  let main_cst_8 : FVec F S_ .f32 := constant S_ .f32 0x7F800000#32
  let main_v25 : FVec F S20 .f32 := broadcastInDim S20 ![] bcast_S_S20 main_cst_8
  let main_v26 : IVec S20 1 := cmpf .olt main_v24 main_v25
  let main_c_9 : IVec S_ 1 := constantI S_ 1 1#1
  let main_v27 : IVec S_ 1 := (fun x v => Host.reduce IntOp.andi x v reducesTo_S20_S_d0 h_S_) main_v26 main_c_9
  let main_v28 : IVec S_ 1 := andi main_v23 main_v27
  let main_c_10 : IVec S_ 32 := constantI S_ 32 0#32
  let main_v29 : IVec S2097152 32 := broadcastInDim S2097152 ![] bcast_S_S2097152 main_c_10
  let main_v30 : IVec S2097152 1 := cmpi .sge main_arg6 main_v29
  let main_c_11 : IVec S_ 1 := constantI S_ 1 1#1
  let main_v31 : IVec S_ 1 := (fun x v => Host.reduce IntOp.andi x v reducesTo_S2097152_S_d0 h_S_) main_v30 main_c_11
  let main_v32 : IVec S_ 1 := andi main_v28 main_v31
  let main_c_12 : IVec S_ 32 := constantI S_ 32 20#32
  fn_part2 (F := F) main_arg6 main_v32 main_c_12

def fn {F : FTy → Type} [FloatOps F] (main_arg0 : FVec F S2097152x20 .f32) (main_arg1 : FVec F S2097152 .f32) (main_arg2 : FVec F S20 .f32) (main_arg3 : FVec F S20 .f32) (main_arg4 : FVec F S20 .f32) (main_arg5 : FVec F S20 .f32) (main_arg6 : IVec S2097152 32) : IVec S_ 1 :=
  let main_v0 : FVec F S2097152x20 .f32 := Host.absf main_arg0
  let main_cst : FVec F S_ .f32 := constant S_ .f32 0x7F800000#32
  let main_v1 : FVec F S2097152x20 .f32 := broadcastInDim S2097152x20 ![] bcast_S_S2097152x20 main_cst
  let main_v2 : IVec S2097152x20 1 := cmpf .olt main_v0 main_v1
  let main_c : IVec S_ 1 := constantI S_ 1 1#1
  let main_v3 : IVec S_ 1 := (fun x v => Host.reduce IntOp.andi x v reducesTo_S2097152x20_S_d0_1 h_S_) main_v2 main_c
  let main_v4 : FVec F S2097152 .f32 := Host.absf main_arg1
  let main_cst_0 : FVec F S_ .f32 := constant S_ .f32 0x7F800000#32
  let main_v5 : FVec F S2097152 .f32 := broadcastInDim S2097152 ![] bcast_S_S2097152 main_cst_0
  let main_v6 : IVec S2097152 1 := cmpf .olt main_v4 main_v5
  let main_c_1 : IVec S_ 1 := constantI S_ 1 1#1
  let main_v7 : IVec S_ 1 := (fun x v => Host.reduce IntOp.andi x v reducesTo_S2097152_S_d0 h_S_) main_v6 main_c_1
  let main_v8 : IVec S_ 1 := andi main_v3 main_v7
  let main_v9 : FVec F S20 .f32 := Host.absf main_arg2
  let main_cst_2 : FVec F S_ .f32 := constant S_ .f32 0x7F800000#32
  let main_v10 : FVec F S20 .f32 := broadcastInDim S20 ![] bcast_S_S20 main_cst_2
  let main_v11 : IVec S20 1 := cmpf .olt main_v9 main_v10
  let main_c_3 : IVec S_ 1 := constantI S_ 1 1#1
  let main_v12 : IVec S_ 1 := (fun x v => Host.reduce IntOp.andi x v reducesTo_S20_S_d0 h_S_) main_v11 main_c_3
  let main_v13 : IVec S_ 1 := andi main_v8 main_v12
  let main_v14 : FVec F S20 .f32 := Host.absf main_arg3
  let main_cst_4 : FVec F S_ .f32 := constant S_ .f32 0x7F800000#32
  let main_v15 : FVec F S20 .f32 := broadcastInDim S20 ![] bcast_S_S20 main_cst_4
  let main_v16 : IVec S20 1 := cmpf .olt main_v14 main_v15
  fn_part1 (F := F) main_arg4 main_arg5 main_arg6 main_v13 main_v16
-- ==== Kernel.lean ====
abbrev S2097152x20 : Shape := ⟨2, ![2097152, 20]⟩
abbrev S2097152 : Shape := ⟨1, ![2097152]⟩
abbrev S20 : Shape := ⟨1, ![20]⟩
abbrev S1x1 : Shape := ⟨2, ![1, 1]⟩
abbrev S8192x20 : Shape := ⟨2, ![8192, 20]⟩
abbrev S8192 : Shape := ⟨1, ![8192]⟩
abbrev S8192x1 : Shape := ⟨2, ![8192, 1]⟩
abbrev S1x20 : Shape := ⟨2, ![1, 20]⟩
abbrev S1x8192 : Shape := ⟨2, ![1, 8192]⟩
abbrev S1 : Shape := ⟨1, ![1]⟩
abbrev S_ : Shape := ⟨0, ![]⟩

abbrev nBuf : Space → Nat
  | .hbm => 9
  | .vmem => 11
  | .smem => 0
  | _ => 0

abbrev bufTy : (tb : Table) → Fin (tcTables nBuf tb) → BufTy
  | .hbm, ⟨0, _⟩ => ⟨S2097152x20, .f32⟩
  | .hbm, ⟨1, _⟩ => ⟨S2097152, .f32⟩
  | .hbm, ⟨2, _⟩ => ⟨S20, .f32⟩
  | .hbm, ⟨3, _⟩ => ⟨S20, .f32⟩
  | .hbm, ⟨4, _⟩ => ⟨S20, .f32⟩
  | .hbm, ⟨5, _⟩ => ⟨S20, .f32⟩
  | .hbm, ⟨6, _⟩ => ⟨S2097152, .i32⟩
  | .hbm, ⟨7, _⟩ => ⟨S1x1, .f32⟩
  | .hbm, ⟨8, _⟩ => ⟨S_, .f32⟩
  | .local _ .vmem, ⟨0, _⟩ => ⟨S8192x20, .f32⟩
  | .local _ .vmem, ⟨1, _⟩ => ⟨S8192x20, .f32⟩
  | .local _ .vmem, ⟨2, _⟩ => ⟨S8192, .i32⟩
  | .local _ .vmem, ⟨3, _⟩ => ⟨S8192, .i32⟩
  | .local _ .vmem, ⟨4, _⟩ => ⟨S8192, .f32⟩
  | .local _ .vmem, ⟨5, _⟩ => ⟨S8192, .f32⟩
  | .local _ .vmem, ⟨6, _⟩ => ⟨S20, .f32⟩
  | .local _ .vmem, ⟨7, _⟩ => ⟨S20, .f32⟩
  | .local _ .vmem, ⟨8, _⟩ => ⟨S20, .f32⟩
  | .local _ .vmem, ⟨9, _⟩ => ⟨S20, .f32⟩
  | .local _ .vmem, ⟨10, _⟩ => ⟨S1x1, .f32⟩
  | _, _ => ⟨S2097152x20, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x20 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S20 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S20 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S20 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S20 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

class Facts₀ : Prop where
  inb_S1x1_S1x1_0_0 : ∀ a, (![0, 0] : Fin 2 → Nat) a + S1x1.size a ≤ S1x1.size a
  h_S1x1 : 0 < S1x1.numel
  inb_S8192x20_S8192x20_0_0 : ∀ a, (![0, 0] : Fin 2 → Nat) a + S8192x20.size a ≤ S8192x20.size a
  h_S8192x20 : 0 < S8192x20.numel
  inb_S8192_S8192_0 : ∀ a, (![0] : Fin 1 → Nat) a + S8192.size a ≤ S8192.size a
  h_S8192 : 0 < S8192.numel
  inb_S20_S20_0 : ∀ a, (![0] : Fin 1 → Nat) a + S20.size a ≤ S20.size a
  h_S20 : 0 < S20.numel
  reduces_S8192x20_S8192 : S8192x20.Reduces [1] S8192
  shapeCasts_S8192_S8192x1 : S8192.ShapeCasts S8192x1
  broadcasts_S8192x1_S8192x20 : S8192x1.Broadcasts S8192x20
  iota_S1x20_d1_w32 : S1x20.Iotas .tc 32 [1]
  broadcasts_S1x20_S8192x20 : S1x20.Broadcasts S8192x20
  natLt_1_32 : 1 < 32
  shapeCasts_S20_S1x20 : S20.ShapeCasts S1x20
  shapeCasts_S8192_S1x8192 : S8192.ShapeCasts S1x8192
  reduces_S1x8192_S1 : S1x8192.Reduces [1] S1
  shapeCasts_S1_S1x1 : S1.ShapeCasts S1x1
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x20.size a ≤ S2097152x20.size a
  hwx0_0 : ∀ i : grid0.Coords, EltTy.bits .f32 = 32 ∨ (Rect.block (s := S2097152x20) S8192x20.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192.size a ≤ S2097152.size a
  hwx0_1 : ∀ i : grid0.Coords, EltTy.bits .i32 = 32 ∨ (Rect.block (s := S2097152) S8192.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192.size a ≤ S2097152.size a
  hwx0_2 : ∀ i : grid0.Coords, EltTy.bits .f32 = 32 ∨ (Rect.block (s := S2097152) S8192.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S20.size a ≤ S20.size a
  hwx0_3 : ∀ i : grid0.Coords, EltTy.bits .f32 = 32 ∨ (Rect.block (s := S20) S20.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S20.size a ≤ S20.size a
  hwx0_4 : ∀ i : grid0.Coords, EltTy.bits .f32 = 32 ∨ (Rect.block (s := S20) S20.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S20.size a ≤ S20.size a
  hwx0_5 : ∀ i : grid0.Coords, EltTy.bits .f32 = 32 ∨ (Rect.block (s := S20) S20.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S20.size a ≤ S20.size a
  hwx0_6 : ∀ i : grid0.Coords, EltTy.bits .f32 = 32 ∨ (Rect.block (s := S20) S20.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)

variable [Facts₀]

abbrev win0_0 : Pipeline.Window sig grid0 :=
  Pipeline.Window.ofSpec (Memref.whole main_arg0) S8192x20.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S8192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S20.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S20.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S20.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S20.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S1x1.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2097152x20 : Shape := ⟨2, ![2097152, 20]⟩
abbrev S2097152 : Shape := ⟨1, ![2097152]⟩
abbrev S20 : Shape := ⟨1, ![20]⟩
abbrev S_ : Shape := ⟨0, ![]⟩
abbrev S2097152x1 : Shape := ⟨2, ![2097152, 1]⟩
abbrev S2097152x1x1 : Shape := ⟨3, ![2097152, 1, 1]⟩
abbrev S1 : Shape := ⟨1, ![1]⟩
abbrev S1x1x1 : Shape := ⟨3, ![1, 1, 1]⟩

abbrev nBuf : Space → Nat
  | .hbm => 103
  | .vmem => 0
  | .smem => 0
  | _ => 0

abbrev bufTy : (tb : Table) → Fin (tcTables nBuf tb) → BufTy
  | .hbm, ⟨0, _⟩ => ⟨S2097152x20, .f32⟩
  | .hbm, ⟨1, _⟩ => ⟨S2097152, .f32⟩
  | .hbm, ⟨2, _⟩ => ⟨S20, .f32⟩
  | .hbm, ⟨3, _⟩ => ⟨S20, .f32⟩
  | .hbm, ⟨4, _⟩ => ⟨S20, .f32⟩
  | .hbm, ⟨5, _⟩ => ⟨S20, .f32⟩
  | .hbm, ⟨6, _⟩ => ⟨S2097152, .i32⟩
  | .hbm, ⟨7, _⟩ => ⟨S_, .f32⟩
  | .hbm, ⟨8, _⟩ => ⟨S2097152, .f32⟩
  | .hbm, ⟨9, _⟩ => ⟨S_, .f32⟩
  | .hbm, ⟨10, _⟩ => ⟨S2097152, .f32⟩
  | .hbm, ⟨11, _⟩ => ⟨S2097152, .f32⟩
  | .hbm, ⟨12, _⟩ => ⟨S2097152x1, .f32⟩
  | .hbm, ⟨13, _⟩ => ⟨S2097152x20, .f32⟩
  | .hbm, ⟨14, _⟩ => ⟨S2097152x20, .f32⟩
  | .hbm, ⟨15, _⟩ => ⟨S2097152x20, .f32⟩
  | .hbm, ⟨16, _⟩ => ⟨S_, .f32⟩
  | .hbm, ⟨17, _⟩ => ⟨S2097152, .f32⟩
  | .hbm, ⟨18, _⟩ => ⟨S2097152x1, .f32⟩
  | .hbm, ⟨19, _⟩ => ⟨S2097152x1, .f32⟩
  | .hbm, ⟨20, _⟩ => ⟨S2097152x20, .f32⟩
  | .hbm, ⟨21, _⟩ => ⟨S2097152x20, .f32⟩
  | .hbm, ⟨22, _⟩ => ⟨S2097152x1, .i32⟩
  | .hbm, ⟨23, _⟩ => ⟨S_, .i32⟩
  | .hbm, ⟨24, _⟩ => ⟨S2097152x1, .i32⟩
  | .hbm, ⟨25, _⟩ => ⟨S2097152x1, .i1⟩
  | .hbm, ⟨26, _⟩ => ⟨S_, .i32⟩
  | .hbm, ⟨27, _⟩ => ⟨S2097152x1, .i32⟩
  | .hbm, ⟨28, _⟩ => ⟨S2097152x1, .i32⟩
  | .hbm, ⟨29, _⟩ => ⟨S2097152x1, .i32⟩
  | .hbm, ⟨30, _⟩ => ⟨S2097152x1x1, .i32⟩
  | .hbm, ⟨31, _⟩ => ⟨S1, .i32⟩
  | .hbm, ⟨32, _⟩ => ⟨S_, .i32⟩
  | .hbm, ⟨33, _⟩ => ⟨S2097152x1x1, .i32⟩
  | .hbm, ⟨34, _⟩ => ⟨S2097152x1x1, .i1⟩
  | .hbm, ⟨35, _⟩ => ⟨S1x1x1, .i32⟩
  | .hbm, ⟨36, _⟩ => ⟨S2097152x1x1, .i32⟩
  | .hbm, ⟨37, _⟩ => ⟨S2097152x1x1, .i1⟩
  | .hbm, ⟨38, _⟩ => ⟨S2097152x1x1, .i1⟩
  | .hbm, ⟨39, _⟩ => ⟨S_, .i1⟩
  | .hbm, ⟨40, _⟩ => ⟨S2097152x1, .i1⟩
  | .hbm, ⟨41, _⟩ => ⟨S2097152x1, .f32⟩
  | .hbm, ⟨42, _⟩ => ⟨S_, .f32⟩
  | .hbm, ⟨43, _⟩ => ⟨S2097152x1, .f32⟩
  | .hbm, ⟨44, _⟩ => ⟨S2097152x1, .f32⟩
  | .hbm, ⟨45, _⟩ => ⟨S2097152, .f32⟩
  | .hbm, ⟨46, _⟩ => ⟨S2097152, .f32⟩
  | .hbm, ⟨47, _⟩ => ⟨S_, .i32⟩
  | .hbm, ⟨48, _⟩ => ⟨S2097152, .i32⟩
  | .hbm, ⟨49, _⟩ => ⟨S2097152, .i1⟩
  | .hbm, ⟨50, _⟩ => ⟨S_, .i32⟩
  | .hbm, ⟨51, _⟩ => ⟨S2097152, .i32⟩
  | .hbm, ⟨52, _⟩ => ⟨S2097152, .i32⟩
  | .hbm, ⟨53, _⟩ => ⟨S2097152, .i32⟩
  | .hbm, ⟨54, _⟩ => ⟨S2097152x1, .i32⟩
  | .hbm, ⟨55, _⟩ => ⟨S2097152, .f32⟩
  | .hbm, ⟨56, _⟩ => ⟨S2097152, .f32⟩
  | .hbm, ⟨57, _⟩ => ⟨S_, .i32⟩
  | .hbm, ⟨58, _⟩ => ⟨S2097152, .i32⟩
  | .hbm, ⟨59, _⟩ => ⟨S2097152, .i1⟩
  | .hbm, ⟨60, _⟩ => ⟨S_, .i32⟩
  | .hbm, ⟨61, _⟩ => ⟨S2097152, .i32⟩
  | .hbm, ⟨62, _⟩ => ⟨S2097152, .i32⟩
  | .hbm, ⟨63, _⟩ => ⟨S2097152, .i32⟩
  | .hbm, ⟨64, _⟩ => ⟨S2097152x1, .i32⟩
  | .hbm, ⟨65, _⟩ => ⟨S2097152, .f32⟩
  | .hbm, ⟨66, _⟩ => ⟨S_, .i32⟩
  | .hbm, ⟨67, _⟩ => ⟨S2097152, .i32⟩
  | .hbm, ⟨68, _⟩ => ⟨S2097152, .i1⟩
  | .hbm, ⟨69, _⟩ => ⟨S_, .i32⟩
  | .hbm, ⟨70, _⟩ => ⟨S2097152, .i32⟩
  | .hbm, ⟨71, _⟩ => ⟨S2097152, .i32⟩
  | .hbm, ⟨72, _⟩ => ⟨S2097152, .i32⟩
  | .hbm, ⟨73, _⟩ => ⟨S2097152x1, .i32⟩
  | .hbm, ⟨74, _⟩ => ⟨S2097152, .f32⟩
  | .hbm, ⟨75, _⟩ => ⟨S_, .i32⟩
  | .hbm, ⟨76, _⟩ => ⟨S2097152, .i32⟩
  | .hbm, ⟨77, _⟩ => ⟨S2097152, .i1⟩
  | .hbm, ⟨78, _⟩ => ⟨S_, .i32⟩
  | .hbm, ⟨79, _⟩ => ⟨S2097152, .i32⟩
  | .hbm, ⟨80, _⟩ => ⟨S2097152, .i32⟩
  | .hbm, ⟨81, _⟩ => ⟨S2097152, .i32⟩
  | .hbm, ⟨82, _⟩ => ⟨S2097152x1, .i32⟩
  | .hbm, ⟨83, _⟩ => ⟨S2097152, .f32⟩
  | .hbm, ⟨84, _⟩ => ⟨S2097152, .f32⟩
  | .hbm, ⟨85, _⟩ => ⟨S2097152, .f32⟩
  | .hbm, ⟨86, _⟩ => ⟨S2097152, .f32⟩
  | .hbm, ⟨87, _⟩ => ⟨S_, .f32⟩
  | .hbm, ⟨88, _⟩ => ⟨S2097152, .f32⟩
  | .hbm, ⟨89, _⟩ => ⟨S2097152, .f32⟩
  | .hbm, ⟨90, _⟩ => ⟨S2097152, .f32⟩
  | .hbm, ⟨91, _⟩ => ⟨S2097152, .f32⟩
  | .hbm, ⟨92, _⟩ => ⟨S2097152, .i1⟩
  | .hbm, ⟨93, _⟩ => ⟨S2097152, .i1⟩
  | .hbm, ⟨94, _⟩ => ⟨S2097152, .f32⟩
  | .hbm, ⟨95, _⟩ => ⟨S_, .f32⟩
  | .hbm, ⟨96, _⟩ => ⟨S2097152, .f32⟩
  | .hbm, ⟨97, _⟩ => ⟨S2097152, .f32⟩
  | .hbm, ⟨98, _⟩ => ⟨S2097152, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | _, _ => ⟨S2097152x20, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_cst : Ref sig .tc := ⟨.hbm, 7, rfl⟩
abbrev main_call0_v0 : Ref sig .tc := ⟨.hbm, 8, rfl⟩
abbrev main_call0_cst_0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_cst_1 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_v0 : Ref sig .tc := ⟨.hbm, 21, rfl⟩
abbrev main_v1 : Ref sig .tc := ⟨.hbm, 22, rfl⟩
abbrev main_call1_c : Ref sig .tc := ⟨.hbm, 23, rfl⟩
abbrev main_call1_v0 : Ref sig .tc := ⟨.hbm, 24, rfl⟩
abbrev main_call1_v1 : Ref sig .tc := ⟨.hbm, 25, rfl⟩
abbrev main_call1_c_0 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_v5 : Ref sig .tc := ⟨.hbm, 30, rfl⟩
abbrev main_call1_c_1 : Ref sig .tc := ⟨.hbm, 31, rfl⟩
abbrev main_call1_c_2 : Ref sig .tc := ⟨.hbm, 32, rfl⟩
abbrev main_call1_v6 : Ref sig .tc := ⟨.hbm, 33, rfl⟩
abbrev main_call1_v7 : Ref sig .tc := ⟨.hbm, 34, rfl⟩
abbrev main_call1_v8 : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_call1_c_3 : Ref sig .tc := ⟨.hbm, 39, rfl⟩
abbrev main_call1_v12 : Ref sig .tc := ⟨.hbm, 40, rfl⟩
abbrev main_call1_v13 : Ref sig .tc := ⟨.hbm, 41, rfl⟩
abbrev main_call1_cst : Ref sig .tc := ⟨.hbm, 42, rfl⟩
abbrev main_call1_v14 : Ref sig .tc := ⟨.hbm, 43, rfl⟩
abbrev main_v2 : Ref sig .tc := ⟨.hbm, 44, rfl⟩
abbrev main_v3 : Ref sig .tc := ⟨.hbm, 45, rfl⟩
abbrev main_v4 : Ref sig .tc := ⟨.hbm, 46, rfl⟩
abbrev main_c : Ref sig .tc := ⟨.hbm, 47, rfl⟩
abbrev main_v5 : Ref sig .tc := ⟨.hbm, 48, rfl⟩
abbrev main_v6 : Ref sig .tc := ⟨.hbm, 49, rfl⟩
abbrev main_c_0 : Ref sig .tc := ⟨.hbm, 50, rfl⟩
abbrev main_v7 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_c_1 : Ref sig .tc := ⟨.hbm, 57, rfl⟩
abbrev main_v13 : Ref sig .tc := ⟨.hbm, 58, rfl⟩
abbrev main_v14 : Ref sig .tc := ⟨.hbm, 59, rfl⟩
abbrev main_c_2 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_c_3 : Ref sig .tc := ⟨.hbm, 66, rfl⟩
abbrev main_v20 : Ref sig .tc := ⟨.hbm, 67, rfl⟩
abbrev main_v21 : Ref sig .tc := ⟨.hbm, 68, rfl⟩
abbrev main_c_4 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_c_5 : Ref sig .tc := ⟨.hbm, 75, rfl⟩
abbrev main_v27 : Ref sig .tc := ⟨.hbm, 76, rfl⟩
abbrev main_v28 : Ref sig .tc := ⟨.hbm, 77, rfl⟩
abbrev main_c_6 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_cst : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_cst_7 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_cst_8 : Ref sig .tc := ⟨.hbm, 99, rfl⟩
abbrev main_v47 : Ref sig .tc := ⟨.hbm, 100, rfl⟩
abbrev main_cst_9 : Ref sig .tc := ⟨.hbm, 101, rfl⟩
abbrev main_v48 : Ref sig .tc := ⟨.hbm, 102, rfl⟩

abbrev nD : Nat := 1
abbrev τ : Topo := Topo.v7x

variable {F : FTy → Type} [FloatOps F]

class Facts₀ : Prop where
  reducesTo_S2097152x20_S2097152_d1 : S2097152x20.ReducesTo [1] S2097152
  h_S_ : 0 < S_.numel
  bcast_S_S2097152 : S_.BroadcastsInDim S2097152 (![] : Fin 0 → Fin S2097152.rank)
  bcast_S2097152_S2097152x1_0 : S2097152.BroadcastsInDim S2097152x1 (![0] : Fin 1 → Fin S2097152x1.rank)
  bcast_S2097152x1_S2097152x20_0_1 : S2097152x1.BroadcastsInDim S2097152x20 (![0, 1] : Fin 2 → Fin S2097152x20.rank)
  bcast_S_S2097152x1 : S_.BroadcastsInDim S2097152x1 (![] : Fin 0 → Fin S2097152x1.rank)
  shapeCasts_S2097152x1_S2097152x1x1 : S2097152x1.ShapeCasts S2097152x1x1
  bcast_S_S2097152x1x1 : S_.BroadcastsInDim S2097152x1x1 (![] : Fin 0 → Fin S2097152x1x1.rank)
  bcast_S1_S1x1x1_2 : S1.BroadcastsInDim S1x1x1 (![2] : Fin 1 → Fin S1x1x1.rank)
  bcast_S1x1x1_S2097152x1x1_0_1_2 : S1x1x1.BroadcastsInDim S2097152x1x1 (![0, 1, 2] : Fin 3 → Fin S2097152x1x1.rank)
  reducesTo_S2097152x1x1_S2097152x1_d2 : S2097152x1x1.ReducesTo [2] S2097152x1
  shapeCasts_S2097152x1_S2097152 : S2097152x1.ShapeCasts S2097152
  reducesTo_S2097152_S_d0 : S2097152.ReducesTo [0] S_
  gather_S2097152x20_S2097152x1x1_S2097152x1_n_1_0_0_1_2_11_wf : GatherDims.WF S2097152x20 S2097152x1x1 S2097152x1 [] [1] [0] [1] [0] 2 ![1, 1]
  gather_S20_S2097152x1_S2097152_n_0_n_n_0_1_1_wf : GatherDims.WF S20 S2097152x1 S2097152 [] [0] [] [0] [] 1 ![1]

variable [Facts₀]

def gather_S2097152x20_S2097152x1x1_S2097152x1_n_1_0_0_1_2_11 : GatherDims S2097152x20 S2097152x1x1 S2097152x1 where
  offsetDims := []
  collapsedSliceDims := [1]
  operandBatchingDims := [0]
  startIndicesBatchingDims := [0]
  startIndexMap := [1]
  indexVectorDim := 2
  sliceSizes := ![1, 1]
  wf := gather_S2097152x20_S2097152x1x1_S2097152x1_n_1_0_0_1_2_11_wf
def gather_S20_S2097152x1_S2097152_n_0_n_n_0_1_1 : GatherDims S20 S2097152x1 S2097152 where
  offsetDims := []
  collapsedSliceDims := [0]
  operandBatchingDims := []
  startIndicesBatchingDims := []
  startIndexMap := [0]
  indexVectorDim := 1
  sliceSizes := ![1]
  wf := gather_S20_S2097152x1_S2097152_n_0_n_n_0_1_1_wf

class Facts : Prop extends Facts₀ where

variable [Facts]
-- ==== Proof.PreRead.lean ====
/-
  The label range, read out of the printed precondition.

  The precondition is a conjunction of one-bit words, and a conjunction of one-bit words is 1 exactly when both
  are.  Its last two conjuncts are "every label word is signed-at-least 0" and "every label word is signed-below
  20", each an all-quantifier printed as a reduction by conjunction over the label vector.  A reduction by
  conjunction that is 1 had a 1 at every position, so every label word w satisfies 0 ≤ w and w < 20 as signed
  integers.  A 32-bit word whose signed reading is nonnegative has its top bit clear, so its signed and unsigned
  readings agree; hence its unsigned value is below 20.
-/
import proofs.«430509_j38517266710750_4_alg».proof.Pre_finite_inputs
import Idealize.ShloMosaic.Lib.ReduceAll
import Idealize.ShloMosaic.Lib.StableHlo.Predicate
import Idealize.ShloMosaic.Lib.ValueIdx

namespace Cert.PreRead

open Idealize.ShloMosaic

/-- A 32-bit word that is at least 0 and below 20 as a signed integer has unsigned value below 20: were its top
    bit set, its signed reading would be negative. -/
theorem toNat_lt_twenty {w : BitVec 32} (h0 : (0#32 : BitVec 32).toInt ≤ w.toInt)
    (h1 : w.toInt < (20#32 : BitVec 32).toInt) : w.toNat < 20 := by
  have e0 : (0#32 : BitVec 32).toInt = 0 := by decide
  have e20 : (20#32 : BitVec 32).toInt = 20 := by decide
  rw [e0] at h0
  rw [e20] at h1
  have hw := w.isLt
  by_cases hc : 2 * w.toNat < 2 ^ 32
  · rw [BitVec.toInt_eq_toNat_cond, if_pos hc] at h1; omega
  · rw [BitVec.toInt_eq_toNat_cond, if_neg hc] at h0; omega

/-- The scalar shape has exactly one index. -/
instance : Subsingleton Cert.Pre_finite_inputs.S_.Idx := ⟨fun a b => funext fun d => d.elim0⟩

/-- Under the precondition every label word has unsigned value below 20. -/
theorem targets_lt [Cert.Pre_finite_inputs.Facts] (a0 : FVec Ideal Cert.Pre_finite_inputs.S2097152x20 .f32) (a1 : FVec Ideal Cert.Pre_finite_inputs.S2097152 .f32) (a2 a3 a4 a5 : FVec Ideal Cert.Pre_finite_inputs.S20 .f32) (tg : IVec Cert.Pre_finite_inputs.S2097152 32)
    (h : Cert.Pre_finite_inputs.fn (F := Ideal) a0 a1 a2 a3 a4 a5 tg = fun _ => 1#1) :
    ∀ r : Cert.Pre_finite_inputs.S2097152.Idx, (tg r).toNat < 20 := by
  intro r
  -- the precondition at its one index, with the chain of operations in view
  have h0 := congrFun h ValueIdx.ix0
  dsimp only [Cert.Pre_finite_inputs.fn, Cert.Pre_finite_inputs.fn_part1, Cert.Pre_finite_inputs.fn_part2] at h0
  -- the outermost conjunction: (everything before) ∧ (all labels below 20)
  obtain ⟨h1, hlt⟩ := IntOp.andi_eq_one.1 h0
  -- the next one in: (the float conjuncts) ∧ (all labels at least 0)
  obtain ⟨_, hge⟩ := IntOp.andi_eq_one.1 h1
  -- an all-quantifier that is 1 holds at row r
  have hge' := Host.reduce_andi_all _ _ _ _ _ hge r
  have hlt' := Host.reduce_andi_all _ _ _ _ _ hlt r
  -- each comparison read as an inequality of signed integers; the broadcast scalar reads as itself at r
  exact toNat_lt_twenty (w := tg r) (IntOp.cmpi_sge.1 hge') (IntOp.cmpi_slt.1 hlt')

end Cert.PreRead
-- ==== Proof.KerBody.lean ====
/-
  What one grid point's body leaves in the one-entry accumulator block, as a function of the blocks it loads.

  At the first point the block is reset to zero and the point's partial sum added; at an inner point the partial sum is
  added to what the point before left; at the last point the sum so far, with the last partial sum added, is divided
  by the row count.  Each is the payload of the store that covers the block last, its loads read back: a load of the
  whole buffer reads the buffer's contents, and a load after a covering store of the same run reads that store's value.
-/
import proofs.«430509_j38517266710750_4_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Body

open Cert.KernelIdeal Cert.KernelIdeal.Gen

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a <;> rfl

/-- An inner point: the accumulator found, plus the point's partial sum. -/
theorem out_B (c : Dev nD) (i : grid0.Coords) (arg1 : Memref sig .tc .vmem S8192x20 .f32) (harg1 : arg1.IsWhole) (arg2 : Memref sig .tc .vmem S8192 .i32) (harg2 : arg2.IsWhole) (arg3 : Memref sig .tc .vmem S8192 .f32) (harg3 : arg3.IsWhole) (arg4 : Memref sig .tc .vmem S20 .f32) (harg4 : arg4.IsWhole) (arg5 : Memref sig .tc .vmem S20 .f32) (harg5 : arg5.IsWhole) (arg6 : Memref sig .tc .vmem S20 .f32) (harg6 : arg6.IsWhole) (arg7 : Memref sig .tc .vmem S20 .f32) (harg7 : arg7.IsWhole) (arg8 : Memref sig .tc .vmem S1x1 .f32) (harg8 : arg8.IsWhole) (hc0 : ¬cond0_0 i) (hc1 : ¬cond0_1 i)
    (x0 : Vec F S8192x20 .f32) (x1 : Vec F S8192 .i32) (x2 : Vec F S8192 .f32) (x3 : Vec F S20 .f32) (x4 : Vec F S20 .f32) (x5 : Vec F S20 .f32) (x6 : Vec F S20 .f32) (xo7 : Vec F S1x1 .f32) :
    out0_B_7 c i arg1 harg1 arg2 harg2 arg3 harg3 arg4 harg4 arg5 harg5 arg6 harg6 arg7 harg7 arg8 harg8 hc0 hc1 x0 x1 x2 x3 x4 x5 x6 xo7
      = k0_pay1 x2 x6 (k0_pay4 x1) (k0_pay5 x0 x1) (k0_pay6 x1 x3) (k0_pay7 x1 x4) (k0_pay8 x1 x5) xo7 := by
  unfold out0_B_7
  rw [View.read_writes_eq_canon _ _ _ (cover0_B_7 c i arg1 harg1 arg2 harg2 arg3 harg3 arg4 harg4 arg5 harg5 arg6 harg6 arg7 harg7 arg8 harg8 hc0 hc1 x0 x1 x2 x3 x4 x5 x6 xo7)]
  unfold kernelRun0_B
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, View.ld_unit_zero (S := S8192x20) hz2, View.ld_unit_zero (S := S8192) hz1, View.ld_unit_zero (S := S20) hz1, View.ld_unit_zero (S := S1x1) hz2]

/-- The first point: the zero block, plus the point's partial sum. -/
theorem out_A (c : Dev nD) (i : grid0.Coords) (arg1 : Memref sig .tc .vmem S8192x20 .f32) (harg1 : arg1.IsWhole) (arg2 : Memref sig .tc .vmem S8192 .i32) (harg2 : arg2.IsWhole) (arg3 : Memref sig .tc .vmem S8192 .f32) (harg3 : arg3.IsWhole) (arg4 : Memref sig .tc .vmem S20 .f32) (harg4 : arg4.IsWhole) (arg5 : Memref sig .tc .vmem S20 .f32) (harg5 : arg5.IsWhole) (arg6 : Memref sig .tc .vmem S20 .f32) (harg6 : arg6.IsWhole) (arg7 : Memref sig .tc .vmem S20 .f32) (harg7 : arg7.IsWhole) (arg8 : Memref sig .tc .vmem S1x1 .f32) (harg8 : arg8.IsWhole) (hc0 : cond0_0 i) (hc1 : ¬cond0_1 i)
    (x0 : Vec F S8192x20 .f32) (x1 : Vec F S8192 .i32) (x2 : Vec F S8192 .f32) (x3 : Vec F S20 .f32) (x4 : Vec F S20 .f32) (x5 : Vec F S20 .f32) (x6 : Vec F S20 .f32) :
    out0_A_7 c i arg1 harg1 arg2 harg2 arg3 harg3 arg4 harg4 arg5 harg5 arg6 harg6 arg7 harg7 arg8 harg8 hc0 hc1 x0 x1 x2 x3 x4 x5 x6
      = k0_pay1 x2 x6 (k0_pay4 x1) (k0_pay5 x0 x1) (k0_pay6 x1 x3) (k0_pay7 x1 x4) (k0_pay8 x1 x5) (k0_pay3 (F := F)) := by
  unfold out0_A_7
  rw [View.read_writes_eq_canon _ _ _ (cover0_A_7 c i arg1 harg1 arg2 harg2 arg3 harg3 arg4 harg4 arg5 harg5 arg6 harg6 arg7 harg7 arg8 harg8 hc0 hc1 x0 x1 x2 x3 x4 x5 x6)]
  unfold kernelRun0_A
  dsimp only
  sl_unfold_words
  rw [View.canon_cons_unit_zero (S := S1x1) hz2, View.readCov_unit_zero (S := S1x1) _ hz2]
  simp only [View.readAt_eq_ld, harg1.read_unread, harg2.read_unread, harg3.read_unread, harg4.read_unread, harg5.read_unread, harg6.read_unread, harg7.read_unread, harg8.read_unread, View.ld_unit_zero (S := S8192x20) hz2, View.ld_unit_zero (S := S8192) hz1, View.ld_unit_zero (S := S20) hz1, View.ld_unit_zero (S := S1x1) hz2]

/-- The last point: the accumulator found plus the point's partial sum, divided by the row count. -/
theorem out_C (c : Dev nD) (i : grid0.Coords) (arg1 : Memref sig .tc .vmem S8192x20 .f32) (harg1 : arg1.IsWhole) (arg2 : Memref sig .tc .vmem S8192 .i32) (harg2 : arg2.IsWhole) (arg3 : Memref sig .tc .vmem S8192 .f32) (harg3 : arg3.IsWhole) (arg4 : Memref sig .tc .vmem S20 .f32) (harg4 : arg4.IsWhole) (arg5 : Memref sig .tc .vmem S20 .f32) (harg5 : arg5.IsWhole) (arg6 : Memref sig .tc .vmem S20 .f32) (harg6 : arg6.IsWhole) (arg7 : Memref sig .tc .vmem S20 .f32) (harg7 : arg7.IsWhole) (arg8 : Memref sig .tc .vmem S1x1 .f32) (harg8 : arg8.IsWhole) (hc0 : ¬cond0_0 i) (hc1 : cond0_1 i)
    (x0 : Vec F S8192x20 .f32) (x1 : Vec F S8192 .i32) (x2 : Vec F S8192 .f32) (x3 : Vec F S20 .f32) (x4 : Vec F S20 .f32) (x5 : Vec F S20 .f32) (x6 : Vec F S20 .f32) (xo7 : Vec F S1x1 .f32) :
    out0_C_7 c i arg1 harg1 arg2 harg2 arg3 harg3 arg4 harg4 arg5 harg5 arg6 harg6 arg7 harg7 arg8 harg8 hc0 hc1 x0 x1 x2 x3 x4 x5 x6 xo7
      = k0_pay2 (k0_pay1 x2 x6 (k0_pay4 x1) (k0_pay5 x0 x1) (k0_pay6 x1 x3) (k0_pay7 x1 x4) (k0_pay8 x1 x5) xo7) := by
  unfold out0_C_7
  rw [View.read_writes_eq_canon _ _ _ (cover0_C_7 c i arg1 harg1 arg2 harg2 arg3 harg3 arg4 harg4 arg5 harg5 arg6 harg6 arg7 harg7 arg8 harg8 hc0 hc1 x0 x1 x2 x3 x4 x5 x6 xo7)]
  unfold kernelRun0_C
  dsimp only
  sl_unfold_words
  rw [View.canon_cons_unit_zero (S := S1x1) hz2, View.readCov_unit_zero (S := S1x1) _ hz2]
  simp only [View.readAt_eq_ld, harg1.read_unread, harg2.read_unread, harg3.read_unread, harg4.read_unread, harg5.read_unread, harg6.read_unread, harg7.read_unread, harg8.read_unread, View.ld_unit_zero (S := S8192x20) hz2, View.ld_unit_zero (S := S8192) hz1, View.ld_unit_zero (S := S20) hz1, View.ld_unit_zero (S := S1x1) hz2]

end Cert.KernelIdeal.Body

end
-- ==== Proof.KerFrame.lean ====
/-
  The kernel's run, read as a value: what the result holds when the run ends.

  The one-entry output block never moves and is written back after the last grid point only, so the result array ends
  holding what the body left in the block at the last point; the host line after the kernel reshapes that one-entry
  array to a scalar, which therefore holds the block's one entry.
-/
import proofs.«430509_j38517266710750_4_alg».proof.Proof.Gen.KernelIdeal.Frame
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.KFrame

open Cert.KernelIdeal Cert.KernelIdeal.Gen

variable {F : FTy → Type} [FloatOps F]
variable (m : (ℓ : Loc nD τ sig) → Buf (Elt F) ℓ) (ρ : Dev nD → PrngReg)

theorem h255 : 255 < cfg0.N := by rw [show cfg0.N = 256 from N_0]; decide

/-- What the body leaves in the output block at the last point, as contents of the result array (its one block is the
    whole array). -/
abbrev result (c : Dev nD) : Buf (Elt F) ((c : Thread nD τ).loc main_v0) := outsAt0 m c 255 h255

/-- The output block's index never moves, and the block is never cut: decided once over the grid. -/
theorem idx7 : ∀ t : Fin cfg0.N, win0_7.index t 0 = 0 ∧ win0_7.index t 1 = 0
    ∧ win0_7.xsize (grid0.coords t) 0 = 1 ∧ win0_7.xsize (grid0.coords t) 1 = 1 :=
  (by decide +kernel : ∀ t : Fin grid0.N, win0_7.index t 0 = 0 ∧ win0_7.index t 1 = 0
    ∧ win0_7.xsize (grid0.coords t) 0 = 1 ∧ win0_7.xsize (grid0.coords t) 1 = 1)

/-- Cutting the one-entry staging block to the block's extent and reading the one-entry array through the block's
    rectangle are the same: the block is the whole array, at zero offsets. -/
theorem cut_read (c : Dev nD) (t : Fin cfg0.N) (R : Buf (Elt F) ((c : Thread nD τ).loc main_v0)) :
    (cfg0.win 7).cut (grid0.coords t) R = ((cfg0.win 7).blk t).view.read (Elt F) R := by
  have hi := idx7 t
  have hz' : (fun a => win0_7.index t a * main_v0.ty.shape.size a) = fun _ => 0 := funext fun a => by
    match a with
    | ⟨0, _⟩ => show win0_7.index t 0 * _ = 0; rw [hi.1]; exact Nat.zero_mul _
    | ⟨1, _⟩ => show win0_7.index t 1 * _ = 0; rw [hi.2.1]; exact Nat.zero_mul _
  exact (Memref.read_access_unit_zero (Elt F) main_v0 hz' (fun a => by rw [congrFun hz' a]; simp) R).symm

/-- The one write-back, at the last point, writes what the body left there. -/
theorem flushed_eq (c : Dev nD) (t : Fin cfg0.N) (hf : (cfg0.win 7).flush t = true) :
    (dats m 0 c).flushed 7 t = ((cfg0.win 7).blk t).view.read (Elt F) (result m c) := by
  have hN : cfg0.N = 256 := N_0
  have h3 : t.val = 255 := by have := (flush0_7 t).mp hf; have := t.isLt; omega
  have e : (dats m 0 c).after 7 t = result m c := by
    rw [after0_7]
    obtain ⟨n, hn⟩ := t
    dsimp only at h3
    subst h3
    rfl
  show (cfg0.win 7).cut (grid0.coords t) ((dats m 0 c).after 7 t) = _
  rw [e]
  exact cut_read c t (result m c)

/-- So the result array ends holding it: the last point's block covers the array. -/
theorem final_o (c : Dev nD) : (dats m 0 c).arrAt 7 cfg0.N = result m c :=
  (dats m 0 c).arrAt_eq_of_cover 7 (result m c) (flushed_eq m c) fun i =>
    ⟨⟨255, h255⟩, (flush0_7 ⟨255, h255⟩).mpr (by decide), by
      have hi := idx7 (⟨255, h255⟩ : Fin cfg0.N)
      show i ∈ ((View.whole main_v0).slice (win0_7.rect ⟨255, h255⟩)).set
      rw [View.set_slice_whole, Rect.mem_set_unit]
      intro a
      have h0 : (i 0 : Nat) < 1 := (i 0).isLt
      have h1 : (i 1 : Nat) < 1 := (i 1).isLt
      match a with
      | ⟨0, _⟩ => show win0_7.index ⟨255, h255⟩ 0 * win0_7.size 0 ≤ (i 0 : Nat) ∧ (i 0 : Nat) < win0_7.index ⟨255, h255⟩ 0 * win0_7.size 0 + win0_7.xsize (grid0.coords ⟨255, h255⟩) 0
                  rw [hi.1, hi.2.2.1]; omega
      | ⟨1, _⟩ => show win0_7.index ⟨255, h255⟩ 1 * win0_7.size 1 ≤ (i 1 : Nat) ∧ (i 1 : Nat) < win0_7.index ⟨255, h255⟩ 1 * win0_7.size 1 + win0_7.xsize (grid0.coords ⟨255, h255⟩) 1
                  rw [hi.2.1, hi.2.2.2]; omega⟩

/-- The scalar the host line after the kernel writes: the result array reshaped. -/
theorem tail_eq (c : Dev nD) :
    Pipeline.afterTail₀ cfgs (dats m) 0 (V0 m) [hostOps1] c main_v1
      = shapeCast S_ (result m c) shapeCasts_S1x1_S_ := by
  have e := (Pipeline.withArrays_arr spec0 launch0.win.arr_inj c (V0 m c) (fun w => (dats m 0 c).arrAt w (cfgs 0).N) 7).trans (final_o m c)
  unfold Pipeline.afterTail₀
  show StableHlo.after hostOps1 _ (Proc.devRef .tc main_v1) = _
  after_results
  funext i
  exact congrFun (congrArg (fun v => shapeCast S_ v shapeCasts_S1x1_S_) e) i

/-- The scalar is no array of the pipeline. -/
theorem v1_rest : main_v1 ∈ Pipeline.restRefs sig (cfgs 0).spec := by decide

/-- The run, read: the scalar result at the reshaped last block, the arguments unchanged. -/
theorem run_value : θ_run defs (onTc (τ := τ) (main (F := F))) ⟨m, fun _ => 0, ρ⟩ (fun r => ∀ c : Dev nD,
      r.2.mem ((c.tc : Thread nD τ).loc main_v1) = shapeCast S_ (result m c) shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_v1 v1_rest).trans (tail_eq m c),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).1 3).trans (((dats m 0 c).arrAt_in 3 rfl _).trans ((A_eq m c 3).trans (V_main_arg2 m c))),
      ((h c).1 4).trans (((dats m 0 c).arrAt_in 4 rfl _).trans ((A_eq m c 4).trans (V_main_arg3 m c))),
      ((h c).1 5).trans (((dats m 0 c).arrAt_in 5 rfl _).trans ((A_eq m c 5).trans (V_main_arg4 m c))),
      ((h c).1 6).trans (((dats m 0 c).arrAt_in 6 rfl _).trans ((A_eq m c 6).trans (V_main_arg5 m c))),
      ((h c).1 1).trans (((dats m 0 c).arrAt_in 1 rfl _).trans ((A_eq m c 1).trans (V_main_arg6 m c)))⟩)
    (run_main m ρ)

end Cert.KernelIdeal.KFrame

end
-- ==== Proof.Spec.lean ====
/-
  The mathematics both programs compute, over the extended reals.

  A row of twenty logits is shifted by its maximum; its log-softmax entry at class c is the shifted logit minus the
  logarithm of the sum of the shifted exponentials.  The loss of a row with label t is minus that entry at t, times
  the class weight of t, times a size weight chosen from the row's area against the mode and the bottom threshold
  of t.  The result is the sum of the row losses over all 2097152 rows divided by the row count.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The class a label word names: the word read signed and clamped into the twenty classes. -/
def clsOf (w : BitVec 32) : Fin 20 := ⟨min w.toInt.toNat (20 - 1), by omega⟩

/-- A label word below twenty names the class of its own value. -/
theorem clsOf_val {w : BitVec 32} (h : w.toNat < 20) : (clsOf w).val = w.toNat := by
  have h31 : w.toNat < 2 ^ 31 := by omega
  have e : w.toInt = (w.toNat : Int) := by
    rw [BitVec.toInt_eq_toNat_cond]; simp; omega
  simp only [clsOf, e, Int.toNat_natCast]
  omega

/-- The maximum of a row, as a fold of max from the least float. -/
def rowMax (x : Fin 20 → EReal) : EReal :=
  (Finset.univ : Finset (Fin 20)).fold max (Ideal.ofBits .f32 0xFF800000#32) x

/-- The log-softmax entry of a row at class c. -/
def logp (x : Fin 20 → EReal) (c : Fin 20) : EReal :=
  (x c - rowMax x) - Ideal.log (∑ k : Fin 20, Ideal.exp (x k - rowMax x))

/-- The size weight: the maximal weight below the threshold, the interpolation between threshold and mode, one above. -/
def sizeW (a mode th mw : EReal) : EReal :=
  Scalar.select (Ideal.cmp .olt a mode)
    (Scalar.select (Ideal.cmp .olt a th) mw
      (mw - Ideal.div (a - th) (mode - th) * (mw - Ideal.ofBits .f32 0x3F800000#32)))
    (Ideal.ofBits .f32 0x3F800000#32)

/-- The loss of one row with class t. -/
def rowLoss (x : Fin 20 → EReal) (a cw mode th mw : EReal) (t : Fin 20) : EReal :=
  (-(logp x t) * cw) * sizeW a mode th mw

/-- The loss of row r of the arguments. -/
def lossAt (pred : (⟨2, ![2097152, 20]⟩ : Shape).Idx → EReal) (area : (⟨1, ![2097152]⟩ : Shape).Idx → EReal)
    (cw cm bt mw : (⟨1, ![20]⟩ : Shape).Idx → EReal) (tg : (⟨1, ![2097152]⟩ : Shape).Idx → BitVec 32)
    (r : Fin 2097152) : EReal :=
  rowLoss (fun k => pred (ix2 r k)) (area (ix1 r)) (cw (ix1 (clsOf (tg (ix1 r))))) (cm (ix1 (clsOf (tg (ix1 r)))))
    (bt (ix1 (clsOf (tg (ix1 r))))) (mw (ix1 (clsOf (tg (ix1 r))))) (clsOf (tg (ix1 r)))

/-- The mean loss. -/
def total (pred : (⟨2, ![2097152, 20]⟩ : Shape).Idx → EReal) (area : (⟨1, ![2097152]⟩ : Shape).Idx → EReal)
    (cw cm bt mw : (⟨1, ![20]⟩ : Shape).Idx → EReal) (tg : (⟨1, ![2097152]⟩ : Shape).Idx → BitVec 32) : EReal :=
  Ideal.div (∑ r : Fin 2097152, lossAt pred area cw cm bt mw tg r) (Ideal.ofBits .f32 0x4A000000#32)

/-- A sum against the indicator of one class keeps that class's term: zero times any extended real is zero. -/
theorem sum_indicator (f : Fin 20 → EReal) (t : Fin 20) :
    (∑ k : Fin 20, f k * (if k = t then (1 : EReal) else 0)) = f t := by
  rw [Finset.sum_eq_single t]
  · simp
  · intro b _ hb; simp [hb]
  · intro h; exact absurd (Finset.mem_univ t) h

/-- Row q of block t. -/
def rowOf (t : Fin 256) (q : Fin 8192) : Fin 2097152 := ⟨8192 * t.val + q.val, by omega⟩

/-- The sum of block t. -/
def blockSum (w : Fin 2097152 → EReal) (t : Fin 256) : EReal := ∑ q : Fin 8192, w (rowOf t q)

/-- The running sum over the blocks, in grid order, from zero. -/
def chain (w : Fin 2097152 → EReal) : (n : ℕ) → n < 256 → EReal
  | 0, h => 0 + blockSum w ⟨0, h⟩
  | n + 1, h => chain w n (Nat.lt_of_succ_lt h) + blockSum w ⟨n + 1, h⟩

end Cert.Spec

end
-- ==== Proof.KerPay.lean ====
/-
  The kernel body's arithmetic, read at the extended reals.

  From one grid point's blocks — 8192 rows of twenty logits, their labels and areas, and the four tables of twenty
  classes — the body forms, row by row, the row maximum, the shifted logits, the sum of their exponentials and the
  log-softmax; the indicator row of the label's class; by summing against that indicator, the log-softmax entry,
  the class weight, the mode, the bottom threshold and the maximal weight of that class; then the row loss; and it
  adds the sum of the 8192 row losses to the accumulator.  Under the precondition that every label lies in [0, 20)
  the indicator row is one at the label's class and zero elsewhere, a sum against it keeps that class's term (zero
  times any extended real is zero), and the value stored is the accumulator plus the sum of the specification's
  row losses.
-/
import proofs.«430509_j38517266710750_4_alg».proof.Proof.Gen.KernelIdeal.Skeleton
import proofs.«430509_j38517266710750_4_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KerPay

open Cert.KernelIdeal Cert.KernelIdeal.Gen Cert.Spec Idealize.ShloMosaic Idealize.ShloMosaic.ValueIdx

/-! ## Indices -/

/-- The index a reduction of a matrix along its columns reads: row q, column k. -/
theorem lift_row {m n : Nat} (h : (⟨2, ![m, n]⟩ : Shape).Reduces [1] ⟨1, ![m]⟩) (q : Fin m) (k : Fin n) :
    h.lift (ix1 q) k = ix2 q k := by
  funext a; match a with | ⟨0, _⟩ => rfl | ⟨1, _⟩ => rfl

/-- A column vector read at (q, u) is the vector at q. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along the rows reads, at (p, c), the column at p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The one-hot row -/

/-- The comparison of a column number with a label word below twenty, widened and read signed: one at the
    label's class, zero elsewhere. -/
theorem onehot_word (w : BitVec 32) (hw : w.toNat < 20) (k : Fin 20) :
    ((((IntOp.cmpi .eq (BitVec.ofNat 32 k.val) w).setWidth 32).toInt : ℝ) : EReal) = if k = clsOf w then 1 else 0 := by
  by_cases hk : k = clsOf w
  · have e : BitVec.ofNat 32 k.val = w := by
      apply BitVec.eq_of_toNat_eq
      rw [BitVec.toNat_ofNat, hk, clsOf_val hw]
      omega
    rw [if_pos hk, e]
    have h1 : IntOp.cmpi .eq w w = 1#1 := by simp [IntOp.cmpi]
    rw [h1]
    have h2 : ((1#1 : BitVec 1).setWidth 32).toInt = 1 := by decide
    rw [h2]; simp
  · have e : BitVec.ofNat 32 k.val ≠ w := by
      intro h; apply hk; apply Fin.ext
      rw [clsOf_val hw, ← h, BitVec.toNat_ofNat]
      have := k.isLt; omega
    rw [if_neg hk]
    have h1 : IntOp.cmpi .eq (BitVec.ofNat 32 k.val) w = 0#1 := by
      show BitVec.ofBool (BitVec.ofNat 32 k.val == w) = 0#1
      rw [beq_eq_false_iff_ne.2 e]; rfl
    rw [h1]
    have h2 : ((0#1 : BitVec 1).setWidth 32).toInt = 0 := by decide
    rw [h2]; simp

/-- The one-hot block at (q, k): one at the class of row q's label, zero elsewhere. -/
theorem pay4_at (v4 : Vec Ideal S8192 .i32) (q : Fin 8192) (hq : (v4 (ix1 q)).toNat < 20) (k : Fin 20) :
    k0_pay4 (F := Ideal) v4 (ix2 q k) = if k = clsOf (v4 (ix1 q)) then 1 else 0 := by
  rw [← onehot_word (v4 (ix1 q)) hq k]
  show FloatOps.sitofp (F := Ideal) .f32 ((IntOp.cmpi .eq
      (broadcastTo S8192x20 (iota .tc S1x20 32 [1] iota_S1x20_d1_w32) broadcasts_S1x20_S8192x20 (ix2 q k))
      (broadcastTo S8192x20 (shapeCast S8192x1 v4 shapeCasts_S8192_S8192x1) broadcasts_S8192x1_S8192x20 (ix2 q k))).setWidth 32) = _
  rw [broadcastTo_1b_ab_apply, broadcastTo_a1_ab_apply, shapeCast_a_a1_apply, iota_single_apply]
  rfl

/-! ## Gathering by the one-hot row -/

/-- A table broadcast over the rows, multiplied by a block whose row q is the indicator of class t and summed
    along that row, is the table at t. -/
theorem gather_row (tab : Vec Ideal S20 .f32) (oh : FVec Ideal S8192x20 .f32) (q : Fin 8192) (t : Fin 20)
    (hoh : ∀ k : Fin 20, oh (ix2 q k) = if k = t then 1 else 0) :
    multiReduction (F := Ideal) .add [1] S8192
        (mulf (broadcastTo S8192x20 (shapeCast S1x20 tab shapeCasts_S20_S1x20) broadcasts_S1x20_S8192x20) oh)
        0x00000000#32 reduces_S8192x20_S8192 (.inl rfl) rfl (ix1 q) = tab (ix1 t) := by
  refine (Ideal.multiReduction_add_single _ _ reduces_S8192x20_S8192 _ _ (ix1 q)).trans ?_
  show ∑ k : Fin 20, _ = _
  rw [← sum_indicator (fun k => tab (ix1 k)) t]
  refine Finset.sum_congr rfl fun k _ => ?_
  rw [lift_row, mulf_apply, broadcastTo_1b_ab_apply, shapeCast_a_1a_apply, hoh]

/-- The row maximum the body takes is the maximum of the row. -/
theorem rowmax_at (v3 : Vec Ideal S8192x20 .f32) (q : Fin 8192) :
    multiReduction (F := Ideal) .maximumf [1] S8192 v3 0xFF800000#32 reduces_S8192x20_S8192 (.inl rfl) rfl (ix1 q)
      = rowMax (fun k => v3 (ix2 q k)) := by
  refine (Ideal.multiReduction_maximumf_single _ _ reduces_S8192x20_S8192 _ _ (ix1 q)).trans ?_
  show (Finset.univ : Finset (Fin 20)).fold max (Ideal.ofBits .f32 0xFF800000#32) _ = _
  unfold rowMax
  congr 1
  funext (k : Fin 20)
  exact congrArg v3 (lift_row reduces_S8192x20_S8192 q k)

/-! ## The gathered log-softmax -/

/-- An exponential at an index is the exponential of the element … -/
theorem exp_at {s : Shape} {φ : FTy} (a : FVec Ideal s φ) (i : s.Idx) : Idealize.ShloMosaic.exp a i = Ideal.exp (a i) := rfl
/-- … and a logarithm the logarithm of the element. -/
theorem log_at {s : Shape} {φ : FTy} (a : FVec Ideal s φ) (i : s.Idx) : Idealize.ShloMosaic.log a i = Ideal.log (a i) := rfl

/-- The negated log-softmax entry of row q at its label's class. -/
theorem pay5_at (v3 : Vec Ideal S8192x20 .f32) (v4 : Vec Ideal S8192 .i32) (q : Fin 8192) (hq : (v4 (ix1 q)).toNat < 20) :
    k0_pay5 (F := Ideal) v3 v4 (ix1 q) = -(logp (fun k => v3 (ix2 q k)) (clsOf (v4 (ix1 q)))) := by
  unfold k0_pay5
  dsimp only
  rw [subf_apply, broadcast_apply]
  refine (congrArg (fun z => FloatOps.ofBits (F := Ideal) .f32 0x00000000#32 - z)
    (Ideal.multiReduction_add_single _ _ reduces_S8192x20_S8192 _ _ (ix1 q))).trans ?_
  show Ideal.ofBits .f32 0x00000000#32 - (∑ k : Fin 20, _) = _
  rw [Ideal.ofBits_zero_f32, zero_sub]
  congr 1
  rw [← sum_indicator (fun k => logp (fun k => v3 (ix2 q k)) k) (clsOf (v4 (ix1 q)))]
  refine Finset.sum_congr rfl fun k _ => ?_
  rw [lift_row, mulf_apply, pay4_at v4 q hq k]
  refine congrArg (fun z => z * (if k = clsOf (v4 (ix1 q)) then (1 : EReal) else 0)) ?_
  rw [subf_apply, subf_apply, broadcastTo_a1_ab_apply, broadcastTo_a1_ab_apply, log_at, shapeCast_a_a1_apply,
    shapeCast_a_a1_apply, rowmax_at]
  unfold logp
  refine congrArg (fun z => v3 (ix2 q k) - rowMax (fun k => v3 (ix2 q k)) - Ideal.log z) ?_
  refine (Ideal.multiReduction_add_single _ _ reduces_S8192x20_S8192 _ _ (ix1 q)).trans ?_
  show ∑ k' : Fin 20, _ = _
  refine Finset.sum_congr rfl fun k' _ => ?_
  rw [lift_row, exp_at, subf_apply, broadcastTo_a1_ab_apply, shapeCast_a_a1_apply, rowmax_at]

/-! ## The gathered tables -/

/-- The class weight of row q. -/
theorem pay6_at (v4 : Vec Ideal S8192 .i32) (v6 : Vec Ideal S20 .f32) (q : Fin 8192) (hq : (v4 (ix1 q)).toNat < 20) :
    k0_pay6 (F := Ideal) v4 v6 (ix1 q) = v6 (ix1 (clsOf (v4 (ix1 q)))) :=
  gather_row v6 (k0_pay4 v4) q _ (pay4_at v4 q hq)

/-- The mode of row q's class. -/
theorem pay7_at (v4 : Vec Ideal S8192 .i32) (v7 : Vec Ideal S20 .f32) (q : Fin 8192) (hq : (v4 (ix1 q)).toNat < 20) :
    k0_pay7 (F := Ideal) v4 v7 (ix1 q) = v7 (ix1 (clsOf (v4 (ix1 q)))) :=
  gather_row v7 (k0_pay4 v4) q _ (pay4_at v4 q hq)

/-- The bottom threshold of row q's class: the row sum of the thresholds against the one-hot block. -/
theorem th_at (v4 : Vec Ideal S8192 .i32) (v8 : Vec Ideal S20 .f32) (q : Fin 8192) (hq : (v4 (ix1 q)).toNat < 20) :
    multiReduction (F := Ideal) .add [1] S8192 (k0_pay8 v4 v8) 0x00000000#32 reduces_S8192x20_S8192 (.inl rfl) rfl (ix1 q)
      = v8 (ix1 (clsOf (v4 (ix1 q)))) :=
  gather_row v8 (k0_pay4 v4) q _ (pay4_at v4 q hq)

/-! ## The body's value -/

/-- The block's contribution: the accumulator plus the sum of the 8192 row losses. -/
theorem pay1_eq (v3 : Vec Ideal S8192x20 .f32) (v4 : Vec Ideal S8192 .i32) (v5 : Vec Ideal S8192 .f32) (v6 v7 v8 v9 : Vec Ideal S20 .f32) (acc : Vec Ideal S1x1 .f32)
    (hr : ∀ q : S8192.Idx, (v4 q).toNat < 20) :
    k0_pay1 (F := Ideal) v5 v9 (k0_pay4 v4) (k0_pay5 v3 v4) (k0_pay6 v4 v6) (k0_pay7 v4 v7) (k0_pay8 v4 v8) acc
      = fun _ => acc (ix2 0 0) + ∑ q : Fin 8192, rowLoss (fun k => v3 (ix2 q k)) (v5 (ix1 q)) (v6 (ix1 (clsOf (v4 (ix1 q))))) (v7 (ix1 (clsOf (v4 (ix1 q))))) (v8 (ix1 (clsOf (v4 (ix1 q))))) (v9 (ix1 (clsOf (v4 (ix1 q))))) (clsOf (v4 (ix1 q))) := by
  funext j
  obtain ⟨a, b, rfl⟩ : ∃ (a b : Fin 1), j = ix2 a b := ⟨j 0, j 1, eq_ix2 j⟩
  obtain rfl : a = 0 := Subsingleton.elim _ _
  obtain rfl : b = 0 := Subsingleton.elim _ _
  unfold k0_pay1
  dsimp only
  rw [addf_apply, shapeCast_self, shapeCast_a_1a_apply]
  refine congrArg (fun z => acc (ix2 0 0) + z) ?_
  refine (Ideal.multiReduction_add_single _ _ reduces_S1x8192_S1 _ _ (ix1 0)).trans ?_
  show ∑ q : Fin 8192, _ = _
  refine Finset.sum_congr rfl fun q _ => ?_
  rw [lift_row, shapeCast_a_1a_apply]
  have e5 := pay5_at v3 v4 q (hr (ix1 q))
  have e6 := pay6_at v4 v6 q (hr (ix1 q))
  have e7 := pay7_at v4 v7 q (hr (ix1 q))
  have e8 := th_at v4 v8 q (hr (ix1 q))
  have e9 := gather_row v9 (k0_pay4 v4) q _ (pay4_at v4 q (hr (ix1 q)))
  unfold rowLoss sizeW
  rw [← e5, ← e6, ← e7, ← e8, ← e9]
  rfl

end Cert.KerPay

end
-- ==== Proof.SpecSum.lean ====
/-
  The running sum over the 256 blocks equals the sum over all 2097152 rows.

  The running sum after block n is the sum of the block sums of blocks 0..n (induction on n, using only that
  addition with zero on the left is the identity).  The double sum over (block, row in block) is then the sum
  over all rows, because (t, q) ↦ 8192 t + q is a bijection from Fin 256 × Fin 8192 onto Fin 2097152.  Only the
  commutative-monoid structure of addition on the extended reals is used.
-/
import proofs.«430509_j38517266710750_4_alg».proof.Proof.Spec
import Mathlib.Algebra.BigOperators.Fin
import Mathlib.Logic.Equiv.Fin.Basic

noncomputable section

namespace Cert.Spec

/-- The running sum after block n is the sum of the block sums of the blocks 0, …, n. -/
theorem chain_eq_sum (w : Fin 2097152 → EReal) :
    ∀ (n : ℕ) (h : n < 256),
      chain w n h = ∑ t : Fin (n + 1), blockSum w ⟨t.val, Nat.lt_of_lt_of_le t.isLt (Nat.succ_le_of_lt h)⟩
  | 0, h => by
      rw [chain, zero_add, Fin.sum_univ_one]
      rfl
  | n + 1, h => by
      rw [chain, Fin.sum_univ_castSucc, chain_eq_sum w n (Nat.lt_of_succ_lt h)]
      rfl

/-- The pair (block, row in block) ↦ row, as a bijection onto the rows. -/
def rowEquiv : Fin 256 × Fin 8192 ≃ Fin 2097152 :=
  finProdFinEquiv.trans (finCongr (by norm_num : 256 * 8192 = 2097152))

/-- The bijection sends (t, q) to row q of block t. -/
theorem rowEquiv_apply (t : Fin 256) (q : Fin 8192) : rowEquiv (t, q) = rowOf t q := by
  apply Fin.ext
  simp only [rowEquiv, Equiv.trans_apply, finProdFinEquiv_apply_val, finCongr_apply, Fin.coe_cast, rowOf]
  exact Nat.add_comm _ _

/-- The sum of the block sums over all blocks is the sum over all rows. -/
theorem sum_blockSum (w : Fin 2097152 → EReal) : ∑ t : Fin 256, blockSum w t = ∑ r : Fin 2097152, w r := by
  unfold blockSum
  rw [← Fintype.sum_prod_type' (fun t q => w (rowOf t q))]
  exact Fintype.sum_equiv rowEquiv _ _ (fun p => by rw [← rowEquiv_apply])

/-- The running sum over all 256 blocks is the sum over all rows. -/
theorem chain_last (w : Fin 2097152 → EReal) : chain w 255 (by decide) = ∑ r : Fin 2097152, w r := by
  rw [chain_eq_sum w 255 (by decide)]
  exact sum_blockSum w

end Cert.Spec

end
-- ==== Proof.KerValue.lean ====
/-
  The kernel's result is the mean loss.

  Block t of each streamed argument is rows 8192 t … 8192 t + 8191 of the argument, and each class table's block is the
  whole table; so the partial sum a grid point adds to the accumulator is the sum of the row losses of its block.  By
  induction on the grid point the accumulator after point n is the running sum of the block sums, from zero, in grid
  order; at the last point it is divided by the row count.  The running sum over all blocks is the sum over all rows.
-/
import proofs.«430509_j38517266710750_4_alg».proof.Proof.KerBody
import proofs.«430509_j38517266710750_4_alg».proof.Proof.KerFrame
import proofs.«430509_j38517266710750_4_alg».proof.Proof.KerPay
import proofs.«430509_j38517266710750_4_alg».proof.Proof.SpecSum

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.Spec

variable (m : (ℓ : Loc nD τ sig) → Buf (Elt Ideal) ℓ) (ρ : Dev nD → PrngReg)

/-- A grid point as a block number. -/
def t256 (t : Fin cfg0.N) : Fin 256 := ⟨t.val, lt_of_lt_of_eq t.isLt N_0⟩

/-- The blocks a grid point loads, each at its literal type. -/
abbrev pblk (c : Dev nD) (t : Fin cfg0.N) : Vec Ideal S8192x20 .f32 := iblk m c 0 t
abbrev tblk (c : Dev nD) (t : Fin cfg0.N) : Vec Ideal S8192 .i32 := iblk m c 1 t
abbrev ablk (c : Dev nD) (t : Fin cfg0.N) : Vec Ideal S8192 .f32 := iblk m c 2 t
abbrev cwblk (c : Dev nD) (t : Fin cfg0.N) : Vec Ideal S20 .f32 := iblk m c 3 t
abbrev cmblk (c : Dev nD) (t : Fin cfg0.N) : Vec Ideal S20 .f32 := iblk m c 4 t
abbrev btblk (c : Dev nD) (t : Fin cfg0.N) : Vec Ideal S20 .f32 := iblk m c 5 t
abbrev mwblk (c : Dev nD) (t : Fin cfg0.N) : Vec Ideal S20 .f32 := iblk m c 6 t

/-- The streamed windows' block index is the grid point, the tables' is zero: decided once over the grid. -/
theorem idx_in : ∀ t : Fin cfg0.N, win0_0.index t 0 = t.val ∧ win0_0.index t 1 = 0 ∧ win0_1.index t 0 = t.val
    ∧ win0_2.index t 0 = t.val ∧ win0_3.index t 0 = 0 ∧ win0_4.index t 0 = 0 ∧ win0_5.index t 0 = 0 ∧ win0_6.index t 0 = 0 :=
  (by decide +kernel : ∀ t : Fin grid0.N, win0_0.index t 0 = t.val ∧ win0_0.index t 1 = 0 ∧ win0_1.index t 0 = t.val
    ∧ win0_2.index t 0 = t.val ∧ win0_3.index t 0 = 0 ∧ win0_4.index t 0 = 0 ∧ win0_5.index t 0 = 0 ∧ win0_6.index t 0 = 0)

/-- Entry (q, k) of the logits' block t is entry (8192 t + q, k) of the logits. -/
theorem pblk_at (c : Dev nD) (t : Fin cfg0.N) (q : Fin 8192) (k : Fin 20) :
    pblk m c t (ix2 q k) = m ((c : Thread nD τ).loc main_arg0) (ix2 (rowOf (t256 t) q) k) := by
  have hi := idx_in t
  show m ((c : Thread nD τ).loc main_arg0) (((cfg0.win 0).blk t).view.emb (ix2 q k)) = _
  refine congrArg (m ((c : Thread nD τ).loc main_arg0)) (funext fun a => Fin.ext ?_)
  match a with
  | ⟨0, _⟩ => show win0_0.index t 0 * 8192 + 1 * q.val = 8192 * t.val + q.val; rw [hi.1]; omega
  | ⟨1, _⟩ => show win0_0.index t 1 * 20 + 1 * k.val = k.val; rw [hi.2.1]; omega

/-- Entry q of the labels' block t is entry 8192 t + q of the labels. -/
theorem tblk_at (c : Dev nD) (t : Fin cfg0.N) (q : Fin 8192) :
    tblk m c t (ix1 q) = m ((c : Thread nD τ).loc main_arg6) (ix1 (rowOf (t256 t) q)) := by
  have hi := idx_in t
  show m ((c : Thread nD τ).loc main_arg6) (((cfg0.win 1).blk t).view.emb (ix1 q)) = _
  refine congrArg (m ((c : Thread nD τ).loc main_arg6)) (funext fun a => Fin.ext ?_)
  match a with
  | ⟨0, _⟩ => show win0_1.index t 0 * 8192 + 1 * q.val = 8192 * t.val + q.val; rw [hi.2.2.1]; omega

/-- Entry q of the areas' block t is entry 8192 t + q of the areas. -/
theorem ablk_at (c : Dev nD) (t : Fin cfg0.N) (q : Fin 8192) :
    ablk m c t (ix1 q) = m ((c : Thread nD τ).loc main_arg1) (ix1 (rowOf (t256 t) q)) := by
  have hi := idx_in t
  show m ((c : Thread nD τ).loc main_arg1) (((cfg0.win 2).blk t).view.emb (ix1 q)) = _
  refine congrArg (m ((c : Thread nD τ).loc main_arg1)) (funext fun a => Fin.ext ?_)
  match a with
  | ⟨0, _⟩ => show win0_2.index t 0 * 8192 + 1 * q.val = 8192 * t.val + q.val; rw [hi.2.2.2.1]; omega

/-- Each class table's block is the table. -/
theorem cwblk_eq (c : Dev nD) (t : Fin cfg0.N) : cwblk m c t = m ((c : Thread nD τ).loc main_arg2) := by
  have hi := idx_in t
  funext j
  show m ((c : Thread nD τ).loc main_arg2) (((cfg0.win 3).blk t).view.emb j) = _
  refine congrArg (m ((c : Thread nD τ).loc main_arg2)) (funext fun a => Fin.ext ?_)
  match a with
  | ⟨0, _⟩ => show win0_3.index t 0 * 20 + 1 * (j 0).val = (j 0).val; rw [hi.2.2.2.2.1]; omega
theorem cmblk_eq (c : Dev nD) (t : Fin cfg0.N) : cmblk m c t = m ((c : Thread nD τ).loc main_arg3) := by
  have hi := idx_in t
  funext j
  show m ((c : Thread nD τ).loc main_arg3) (((cfg0.win 4).blk t).view.emb j) = _
  refine congrArg (m ((c : Thread nD τ).loc main_arg3)) (funext fun a => Fin.ext ?_)
  match a with
  | ⟨0, _⟩ => show win0_4.index t 0 * 20 + 1 * (j 0).val = (j 0).val; rw [hi.2.2.2.2.2.1]; omega
theorem btblk_eq (c : Dev nD) (t : Fin cfg0.N) : btblk m c t = m ((c : Thread nD τ).loc main_arg4) := by
  have hi := idx_in t
  funext j
  show m ((c : Thread nD τ).loc main_arg4) (((cfg0.win 5).blk t).view.emb j) = _
  refine congrArg (m ((c : Thread nD τ).loc main_arg4)) (funext fun a => Fin.ext ?_)
  match a with
  | ⟨0, _⟩ => show win0_5.index t 0 * 20 + 1 * (j 0).val = (j 0).val; rw [hi.2.2.2.2.2.2.1]; omega
theorem mwblk_eq (c : Dev nD) (t : Fin cfg0.N) : mwblk m c t = m ((c : Thread nD τ).loc main_arg5) := by
  have hi := idx_in t
  funext j
  show m ((c : Thread nD τ).loc main_arg5) (((cfg0.win 6).blk t).view.emb j) = _
  refine congrArg (m ((c : Thread nD τ).loc main_arg5)) (funext fun a => Fin.ext ?_)
  match a with
  | ⟨0, _⟩ => show win0_6.index t 0 * 20 + 1 * (j 0).val = (j 0).val; rw [hi.2.2.2.2.2.2.2]; omega

/-- The row losses of the arguments on core c. -/
def w (c : Dev nD) : Fin 2097152 → EReal :=
  lossAt (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- What a grid point stores over an accumulator: the accumulator's entry plus the sum of its block's row losses. -/
theorem step (c : Dev nD) (t : Fin cfg0.N) (acc : Vec Ideal S1x1 .f32)
    (hr : ∀ r, (m ((c : Thread nD τ).loc main_arg6) r).toNat < 20) :
    k0_pay1 (F := Ideal) (ablk m c t) (mwblk m c t) (k0_pay4 (tblk m c t)) (k0_pay5 (pblk m c t) (tblk m c t)) (k0_pay6 (tblk m c t) (cwblk m c t)) (k0_pay7 (tblk m c t) (cmblk m c t)) (k0_pay8 (tblk m c t) (btblk m c t)) acc
      = fun _ => acc (ix2 0 0) + blockSum (w m c) (t256 t) := by
  have hr' : ∀ q : S8192.Idx, (tblk m c t q).toNat < 20 := fun q => by
    obtain ⟨q', rfl⟩ : ∃ q' : Fin 8192, q = ix1 q' := ⟨q 0, eq_ix1 q⟩
    rw [tblk_at]; exact hr _
  rw [Cert.KerPay.pay1_eq (pblk m c t) (tblk m c t) (ablk m c t) (cwblk m c t) (cmblk m c t) (btblk m c t) (mwblk m c t) acc hr']
  funext _
  refine congrArg (fun s => acc (ix2 0 0) + s) ?_
  unfold blockSum
  refine Finset.sum_congr rfl fun q _ => ?_
  rw [tblk_at, ablk_at, cwblk_eq, cmblk_eq, btblk_eq, mwblk_eq,
    show (fun k => pblk m c t (ix2 q k)) = fun k => m ((c : Thread nD τ).loc main_arg0) (ix2 (rowOf (t256 t) q) k) from
      funext fun k => pblk_at m c t q k]
  rfl

/-- The division the last point applies, at an entry. -/
theorem pay2_eq (v : Vec Ideal S1x1 .f32) :
    k0_pay2 (F := Ideal) v = fun i => Ideal.div (v i) (Ideal.ofBits .f32 0x4A000000#32) := by
  unfold k0_pay2
  rw [shapeCast_self]
  rfl

/-- The zero block's entry is zero. -/
theorem pay3_at : (k0_pay3 (F := Ideal)) (ix2 0 0) = 0 := by
  unfold k0_pay3
  exact Ideal.ofBits_zero_f32

/-- The divisor: the row count as a float word. -/
abbrev K : EReal := Ideal.ofBits .f32 0x4A000000#32

/-- THE RUNNING SUM. After grid point n the accumulator block holds the running sum of the block sums through n — at the
    last point divided by the row count —: by induction on the point, each case of the body read as a value. -/
theorem outsAt_eq (c : Dev nD) (hr : ∀ r, (m ((c : Thread nD τ).loc main_arg6) r).toNat < 20) :
    ∀ (n : ℕ) (h : n < cfg0.N) (h' : n < 256),
      outsAt0 m c n h = fun _ => if n = 255 then Ideal.div (chain (w m c) n h') K else chain (w m c) n h'
  | 0, h, h' => by
    have h0 : (⟨0, h⟩ : Fin cfg0.N).val % 256 = 0 := rfl
    have h1 : ¬(⟨0, h⟩ : Fin cfg0.N).val % 256 = 255 := by dsimp only; omega
    refine (outsAt0_A m c ⟨0, h⟩ h0 h1).trans ?_
    refine (Cert.KernelIdeal.Body.out_A (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) ((hcond0_0 ⟨0, h⟩).mpr h0) (fun hh => h1 ((hcond0_1 ⟨0, h⟩).mp hh)) (pblk m c ⟨0, h⟩) (tblk m c ⟨0, h⟩) (ablk m c ⟨0, h⟩) (cwblk m c ⟨0, h⟩) (cmblk m c ⟨0, h⟩) (btblk m c ⟨0, h⟩) (mwblk m c ⟨0, h⟩)).trans ?_
    refine (step m c ⟨0, h⟩ (k0_pay3 (F := Ideal)) hr).trans ?_
    funext _
    rw [pay3_at, if_neg (by decide)]
    rfl
  | n + 1, h, h' => by
    have hN : cfg0.N = 256 := N_0
    have h0 : ¬(⟨n + 1, h⟩ : Fin cfg0.N).val % 256 = 0 := by dsimp only; omega
    have ih := outsAt_eq c hr n (Nat.lt_of_succ_lt h) (Nat.lt_of_succ_lt h')
    have hn : ¬n = 255 := by omega
    have prev : outsAt0 m c ((⟨n + 1, h⟩ : Fin cfg0.N).val - 1) (Nat.lt_of_le_of_lt (Nat.sub_le _ _) (⟨n + 1, h⟩ : Fin cfg0.N).isLt)
        = fun _ => chain (w m c) n (Nat.lt_of_succ_lt h') := by
      refine Eq.trans ?_ (ih.trans (funext fun _ => if_neg hn))
      rfl
    by_cases h1 : (⟨n + 1, h⟩ : Fin cfg0.N).val % 256 = 255
    · have hn1 : n + 1 = 255 := by dsimp only at h1; omega
      refine (outsAt0_C m c ⟨n + 1, h⟩ h0 h1).trans ?_
      refine (Cert.KernelIdeal.Body.out_C (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (fun hh => h0 ((hcond0_0 ⟨n + 1, h⟩).mp hh)) ((hcond0_1 ⟨n + 1, h⟩).mpr h1) (pblk m c ⟨n + 1, h⟩) (tblk m c ⟨n + 1, h⟩) (ablk m c ⟨n + 1, h⟩) (cwblk m c ⟨n + 1, h⟩) (cmblk m c ⟨n + 1, h⟩) (btblk m c ⟨n + 1, h⟩) (mwblk m c ⟨n + 1, h⟩) _).trans ?_
      rw [prev, step m c ⟨n + 1, h⟩ _ hr, pay2_eq]
      funext _
      rw [if_pos hn1]
      rfl
    · have hn1 : ¬n + 1 = 255 := by dsimp only at h1; omega
      refine (outsAt0_B m c ⟨n + 1, h⟩ h0 h1).trans ?_
      refine (Cert.KernelIdeal.Body.out_B (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (fun hh => h0 ((hcond0_0 ⟨n + 1, h⟩).mp hh)) (fun hh => h1 ((hcond0_1 ⟨n + 1, h⟩).mp hh)) (pblk m c ⟨n + 1, h⟩) (tblk m c ⟨n + 1, h⟩) (ablk m c ⟨n + 1, h⟩) (cwblk m c ⟨n + 1, h⟩) (cmblk m c ⟨n + 1, h⟩) (btblk m c ⟨n + 1, h⟩) (mwblk m c ⟨n + 1, h⟩) _).trans ?_
      rw [prev, step m c ⟨n + 1, h⟩ _ hr]
      funext _
      rw [if_neg hn1]
      rfl

/-- The scalar result is the mean loss. -/
theorem result_eq (c : Dev nD) (hr : ∀ r, (m ((c : Thread nD τ).loc main_arg6) r).toNat < 20) :
    shapeCast S_ (Cert.KernelIdeal.KFrame.result m c) shapeCasts_S1x1_S_
      = fun _ => total (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  have e : Cert.KernelIdeal.KFrame.result m c = fun _ => Ideal.div (chain (w m c) 255 (by decide)) K :=
    (outsAt_eq m c hr 255 Cert.KernelIdeal.KFrame.h255 (by decide)).trans (funext fun _ => if_pos rfl)
  rw [e, chain_last]
  funext _
  rfl

/-- The kernel's run, read as a value: the result at the mean loss, the arguments unchanged. -/
theorem run (hr : ∀ (c : Dev nD) r, (m ((c : Thread nD τ).loc main_arg6) r).toNat < 20) :
    θ_run defs (onTc (τ := τ) (main (F := Ideal))) ⟨m, fun _ => 0, ρ⟩ (fun r => ∀ c : Dev nD,
      r.2.mem ((c.tc : Thread nD τ).loc main_v1)
        = (fun _ => total (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1.trans (result_eq m c (hr c)), (h c).2⟩)
    (Cert.KernelIdeal.KFrame.run_value m ρ)

end Cert.KernelIdeal.KValue

end
-- ==== Proof.RefBridge.lean ====
/-
  The reference program's run, read stage by stage.

  The program is a straight line of host operations, so its run leaves every buffer at the fold of the operations'
  results over the launch contents.  The line is cut where one function of the program ends and the next begins — the
  log-softmax, the gather along the class axis, the class-weight take, the three other takes, the closing arithmetic
  and mean — and each stretch's result is read as the stage function of the arguments it depends on, given the stages
  it takes over from the stretch before; a buffer a stretch does not write keeps its contents.  Joined, the result
  buffer holds the last stage of the arguments.
-/
import proofs.«430509_j38517266710750_4_alg».proof.Proof.RefRun
import proofs.«430509_j38517266710750_4_alg».proof.Proof.RefStages

noncomputable section

namespace Cert.ReferenceIdeal.Bridge

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

/-- The log-softmax's fifteen operations, as the program spells them (over typed references to a call's buffers); -/
abbrev opsAT : List (HloOp τ sig (Elt F)) :=
  [ TRef.nullary (TRef.of (T := ⟨S_, .f32⟩) main_call0_cst) (constant S_ .f32 0xFF800000#32),
    TRef.binary (TRef.of (T := ⟨S2097152x20, .f32⟩) main_arg0) (TRef.of (T := ⟨S_, .f32⟩) main_call0_cst) (TRef.of (T := ⟨S2097152, .f32⟩) main_call0_v0) (fun x v => Host.reduce FloatOps.maximumf x v reducesTo_S2097152x20_S2097152_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S2097152, .f32⟩) main_call0_v1) (broadcastInDim S2097152 ![] bcast_S_S2097152),
    TRef.binary (TRef.of (T := ⟨S2097152, .f32⟩) main_call0_v1) (TRef.of (T := ⟨S2097152, .f32⟩) main_call0_v0) (TRef.of (T := ⟨S2097152, .f32⟩) main_call0_v2) maximumf,
    TRef.unary (TRef.of (T := ⟨S2097152, .f32⟩) main_call0_v2) (TRef.of (T := ⟨S2097152x1, .f32⟩) main_call0_v3) (broadcastInDim S2097152x1 ![0] bcast_S2097152_S2097152x1_0),
    TRef.unary (TRef.of (T := ⟨S2097152x1, .f32⟩) main_call0_v3) (TRef.of (T := ⟨S2097152x20, .f32⟩) main_call0_v4) (broadcastInDim S2097152x20 ![0, 1] bcast_S2097152x1_S2097152x20_0_1),
    TRef.binary (TRef.of (T := ⟨S2097152x20, .f32⟩) main_arg0) (TRef.of (T := ⟨S2097152x20, .f32⟩) main_call0_v4) (TRef.of (T := ⟨S2097152x20, .f32⟩) main_call0_v5) subf,
    TRef.unary (TRef.of (T := ⟨S2097152x20, .f32⟩) main_call0_v5) (TRef.of (T := ⟨S2097152x20, .f32⟩) main_call0_v6) Host.exp,
    TRef.nullary (TRef.of (T := ⟨S_, .f32⟩) main_call0_cst_1) (constant S_ .f32 0x00000000#32),
    TRef.binary (TRef.of (T := ⟨S2097152x20, .f32⟩) main_call0_v6) (TRef.of (T := ⟨S_, .f32⟩) main_call0_cst_1) (TRef.of (T := ⟨S2097152, .f32⟩) main_call0_v7) (fun x v => Host.reduceAdd x v reducesTo_S2097152x20_S2097152_d1 h_S_),
    TRef.unary (TRef.of (T := ⟨S2097152, .f32⟩) main_call0_v7) (TRef.of (T := ⟨S2097152x1, .f32⟩) main_call0_v8) (broadcastInDim S2097152x1 ![0] bcast_S2097152_S2097152x1_0),
    TRef.unary (TRef.of (T := ⟨S2097152x1, .f32⟩) main_call0_v8) (TRef.of (T := ⟨S2097152x1, .f32⟩) main_call0_v9) Host.log,
    TRef.unary (TRef.of (T := ⟨S2097152x1, .f32⟩) main_call0_v9) (TRef.of (T := ⟨S2097152x20, .f32⟩) main_call0_v10) (broadcastInDim S2097152x20 ![0, 1] bcast_S2097152x1_S2097152x20_0_1),
    TRef.binary (TRef.of (T := ⟨S2097152x20, .f32⟩) main_call0_v5) (TRef.of (T := ⟨S2097152x20, .f32⟩) main_call0_v10) (TRef.of (T := ⟨S2097152x20, .f32⟩) main_v0) subf ]

/-- and spelt over the buffers themselves: a typed reference's transport of contents is the identity. -/
abbrev opsA : List (HloOp τ sig (Elt F)) :=
  [ nullary main_call0_cst (constant S_ .f32 0xFF800000#32 : (⟨S_, .f32⟩ : BufTy).Contents (Elt F)),
    binary main_arg0 main_call0_cst main_call0_v0 ((fun x v => Host.reduce FloatOps.maximumf x v reducesTo_S2097152x20_S2097152_d1 h_S_) : (⟨S2097152x20, .f32⟩ : BufTy).Contents (Elt F) → (⟨S_, .f32⟩ : BufTy).Contents (Elt F) → (⟨S2097152, .f32⟩ : BufTy).Contents (Elt F)),
    nullary main_call0_cst_0 (constant S_ .f32 0xFF800000#32 : (⟨S_, .f32⟩ : BufTy).Contents (Elt F)),
    unary main_call0_cst_0 main_call0_v1 ((broadcastInDim S2097152 ![] bcast_S_S2097152) : (⟨S_, .f32⟩ : BufTy).Contents (Elt F) → (⟨S2097152, .f32⟩ : BufTy).Contents (Elt F)),
    binary main_call0_v1 main_call0_v0 main_call0_v2 (maximumf : (⟨S2097152, .f32⟩ : BufTy).Contents (Elt F) → (⟨S2097152, .f32⟩ : BufTy).Contents (Elt F) → (⟨S2097152, .f32⟩ : BufTy).Contents (Elt F)),
    unary main_call0_v2 main_call0_v3 ((broadcastInDim S2097152x1 ![0] bcast_S2097152_S2097152x1_0) : (⟨S2097152, .f32⟩ : BufTy).Contents (Elt F) → (⟨S2097152x1, .f32⟩ : BufTy).Contents (Elt F)),
    unary main_call0_v3 main_call0_v4 ((broadcastInDim S2097152x20 ![0, 1] bcast_S2097152x1_S2097152x20_0_1) : (⟨S2097152x1, .f32⟩ : BufTy).Contents (Elt F) → (⟨S2097152x20, .f32⟩ : BufTy).Contents (Elt F)),
    binary main_arg0 main_call0_v4 main_call0_v5 (subf : (⟨S2097152x20, .f32⟩ : BufTy).Contents (Elt F) → (⟨S2097152x20, .f32⟩ : BufTy).Contents (Elt F) → (⟨S2097152x20, .f32⟩ : BufTy).Contents (Elt F)),
    unary main_call0_v5 main_call0_v6 (Host.exp : (⟨S2097152x20, .f32⟩ : BufTy).Contents (Elt F) → (⟨S2097152x20, .f32⟩ : BufTy).Contents (Elt F)),
    nullary main_call0_cst_1 (constant S_ .f32 0x00000000#32 : (⟨S_, .f32⟩ : BufTy).Contents (Elt F)),
    binary main_call0_v6 main_call0_cst_1 main_call0_v7 ((fun x v => Host.reduceAdd x v reducesTo_S2097152x20_S2097152_d1 h_S_) : (⟨S2097152x20, .f32⟩ : BufTy).Contents (Elt F) → (⟨S_, .f32⟩ : BufTy).Contents (Elt F) → (⟨S2097152, .f32⟩ : BufTy).Contents (Elt F)),
    unary main_call0_v7 main_call0_v8 ((broadcastInDim S2097152x1 ![0] bcast_S2097152_S2097152x1_0) : (⟨S2097152, .f32⟩ : BufTy).Contents (Elt F) → (⟨S2097152x1, .f32⟩ : BufTy).Contents (Elt F)),
    unary main_call0_v8 main_call0_v9 (Host.log : (⟨S2097152x1, .f32⟩ : BufTy).Contents (Elt F) → (⟨S2097152x1, .f32⟩ : BufTy).Contents (Elt F)),
    unary main_call0_v9 main_call0_v10 ((broadcastInDim S2097152x20 ![0, 1] bcast_S2097152x1_S2097152x20_0_1) : (⟨S2097152x1, .f32⟩ : BufTy).Contents (Elt F) → (⟨S2097152x20, .f32⟩ : BufTy).Contents (Elt F)),
    binary main_call0_v5 main_call0_v10 main_v0 (subf : (⟨S2097152x20, .f32⟩ : BufTy).Contents (Elt F) → (⟨S2097152x20, .f32⟩ : BufTy).Contents (Elt F) → (⟨S2097152x20, .f32⟩ : BufTy).Contents (Elt F)) ]

theorem opsA_eq : (opsAT : List (HloOp τ sig (Elt F))) = opsA := by
  unfold opsAT opsA
  simp only [TRef.nullary, TRef.unary, TRef.binary, TRef.ternary, TRef.reshape, TRef.toBuf, TRef.ofBuf, cast_eq]
  rfl

/-- The labels as a column, the gather along the class axis, and the negation: twenty-five operations, as the program
    spells them; -/
abbrev opsBT : List (HloOp τ sig (Elt F)) :=
  [ unary main_arg6 main_v1 (broadcastInDim S2097152x1 ![0] bcast_S2097152_S2097152x1_0 : (⟨S2097152, .i32⟩ : BufTy).Contents (Elt F) → (⟨S2097152x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S2097152x1, .i32⟩) main_call1_v0) (broadcastInDim S2097152x1 ![] bcast_S_S2097152x1),
    TRef.binary (TRef.of (T := ⟨S2097152x1, .i32⟩) main_v1) (TRef.of (T := ⟨S2097152x1, .i32⟩) main_call1_v0) (TRef.of (T := ⟨S2097152x1, .i1⟩) main_call1_v1) (cmpi .slt),
    TRef.nullary (TRef.of (T := ⟨S_, .i32⟩) main_call1_c_0) (constantI S_ 32 20#32),
    TRef.unary (TRef.of (T := ⟨S_, .i32⟩) main_call1_c_0) (TRef.of (T := ⟨S2097152x1, .i32⟩) main_call1_v2) (broadcastInDim S2097152x1 ![] bcast_S_S2097152x1),
    TRef.binary (TRef.of (T := ⟨S2097152x1, .i32⟩) main_v1) (TRef.of (T := ⟨S2097152x1, .i32⟩) main_call1_v2) (TRef.of (T := ⟨S2097152x1, .i32⟩) main_call1_v3) addi,
    TRef.ternary (TRef.of (T := ⟨S2097152x1, .i1⟩) main_call1_v1) (TRef.of (T := ⟨S2097152x1, .i32⟩) main_call1_v3) (TRef.of (T := ⟨S2097152x1, .i32⟩) main_v1) (TRef.of (T := ⟨S2097152x1, .i32⟩) main_call1_v4) select,
    TRef.reshape (TRef.of (T := ⟨S2097152x1, .i32⟩) main_call1_v4) (TRef.of (T := ⟨S2097152x1x1, .i32⟩) main_call1_v5) rfl shapeCasts_S2097152x1_S2097152x1x1,
    TRef.nullary (TRef.of (T := ⟨S1, .i32⟩) main_call1_c_1) (constantI S1 32 19#32),
    TRef.nullary (TRef.of (T := ⟨S_, .i32⟩) main_call1_c_2) (constantI S_ 32 0#32),
    TRef.unary (TRef.of (T := ⟨S_, .i32⟩) main_call1_c_2) (TRef.of (T := ⟨S2097152x1x1, .i32⟩) main_call1_v6) (broadcastInDim S2097152x1x1 ![] bcast_S_S2097152x1x1),
    TRef.binary (TRef.of (T := ⟨S2097152x1x1, .i32⟩) main_call1_v5) (TRef.of (T := ⟨S2097152x1x1, .i32⟩) main_call1_v6) (TRef.of (T := ⟨S2097152x1x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S2097152x1x1, .i32⟩) main_call1_v9) (broadcastInDim S2097152x1x1 ![0, 1, 2] bcast_S1x1x1_S2097152x1x1_0_1_2),
    TRef.binary (TRef.of (T := ⟨S2097152x1x1, .i32⟩) main_call1_v5) (TRef.of (T := ⟨S2097152x1x1, .i32⟩) main_call1_v9) (TRef.of (T := ⟨S2097152x1x1, .i1⟩) main_call1_v10) (cmpi .sle),
    TRef.binary (TRef.of (T := ⟨S2097152x1x1, .i1⟩) main_call1_v7) (TRef.of (T := ⟨S2097152x1x1, .i1⟩) main_call1_v10) (TRef.of (T := ⟨S2097152x1x1, .i1⟩) main_call1_v11) andi,
    TRef.nullary (TRef.of (T := ⟨S_, .i1⟩) main_call1_c_3) (constantI S_ 1 1#1),
    TRef.binary (TRef.of (T := ⟨S2097152x1x1, .i1⟩) main_call1_v11) (TRef.of (T := ⟨S_, .i1⟩) main_call1_c_3) (TRef.of (T := ⟨S2097152x1, .i1⟩) main_call1_v12) (fun x v => Host.reduce IntOp.andi x v reducesTo_S2097152x1x1_S2097152x1_d2 h_S_),
    TRef.binary (TRef.of (T := ⟨S2097152x20, .f32⟩) main_v0) (TRef.of (T := ⟨S2097152x1x1, .i32⟩) main_call1_v5) (TRef.of (T := ⟨S2097152x1, .f32⟩) main_call1_v13) (fun x i => Host.gather gather_S2097152x20_S2097152x1x1_S2097152x1_n_1_0_0_1_2_11 x i),
    TRef.nullary (TRef.of (T := ⟨S_, .f32⟩) main_call1_cst) (constant S_ .f32 0x7FC00000#32),
    TRef.unary (TRef.of (T := ⟨S_, .f32⟩) main_call1_cst) (TRef.of (T := ⟨S2097152x1, .f32⟩) main_call1_v14) (broadcastInDim S2097152x1 ![] bcast_S_S2097152x1),
    TRef.ternary (TRef.of (T := ⟨S2097152x1, .i1⟩) main_call1_v12) (TRef.of (T := ⟨S2097152x1, .f32⟩) main_call1_v13) (TRef.of (T := ⟨S2097152x1, .f32⟩) main_call1_v14) (TRef.of (T := ⟨S2097152x1, .f32⟩) main_v2) select,
    reshape main_v2 main_v3 rfl shapeCasts_S2097152x1_S2097152,
    unary main_v3 main_v4 (Host.negf : (⟨S2097152, .f32⟩ : BufTy).Contents (Elt F) → (⟨S2097152, .f32⟩ : BufTy).Contents (Elt F)) ]

/-- and over the buffers themselves. -/
abbrev opsB : List (HloOp τ sig (Elt F)) :=
  [ unary main_arg6 main_v1 (broadcastInDim S2097152x1 ![0] bcast_S2097152_S2097152x1_0 : (⟨S2097152, .i32⟩ : BufTy).Contents (Elt F) → (⟨S2097152x1, .i32⟩ : BufTy).Contents (Elt F)),
    nullary main_call1_c (constantI S_ 32 0#32 : (⟨S_, .i32⟩ : BufTy).Contents (Elt F)),
    unary main_call1_c main_call1_v0 ((broadcastInDim S2097152x1 ![] bcast_S_S2097152x1) : (⟨S_, .i32⟩ : BufTy).Contents (Elt F) → (⟨S2097152x1, .i32⟩ : BufTy).Contents (Elt F)),
    binary main_v1 main_call1_v0 main_call1_v1 ((cmpi .slt) : (⟨S2097152x1, .i32⟩ : BufTy).Contents (Elt F) → (⟨S2097152x1, .i32⟩ : BufTy).Contents (Elt F) → (⟨S2097152x1, .i1⟩ : BufTy).Contents (Elt F)),
    nullary main_call1_c_0 (constantI S_ 32 20#32 : (⟨S_, .i32⟩ : BufTy).Contents (Elt F)),
    unary main_call1_c_0 main_call1_v2 ((broadcastInDim S2097152x1 ![] bcast_S_S2097152x1) : (⟨S_, .i32⟩ : BufTy).Contents (Elt F) → (⟨S2097152x1, .i32⟩ : BufTy).Contents (Elt F)),
    binary main_v1 main_call1_v2 main_call1_v3 (addi : (⟨S2097152x1, .i32⟩ : BufTy).Contents (Elt F) → (⟨S2097152x1, .i32⟩ : BufTy).Contents (Elt F) → (⟨S2097152x1, .i32⟩ : BufTy).Contents (Elt F)),
    ternary main_call1_v1 main_call1_v3 main_v1 main_call1_v4 (select : (⟨S2097152x1, .i1⟩ : BufTy).Contents (Elt F) → (⟨S2097152x1, .i32⟩ : BufTy).Contents (Elt F) → (⟨S2097152x1, .i32⟩ : BufTy).Contents (Elt F) → (⟨S2097152x1, .i32⟩ : BufTy).Contents (Elt F)),
    reshape main_call1_v4 main_call1_v5 rfl shapeCasts_S2097152x1_S2097152x1x1,
    nullary main_call1_c_1 (constantI S1 32 19#32 : (⟨S1, .i32⟩ : BufTy).Contents (Elt F)),
    nullary main_call1_c_2 (constantI S_ 32 0#32 : (⟨S_, .i32⟩ : BufTy).Contents (Elt F)),
    unary main_call1_c_2 main_call1_v6 ((broadcastInDim S2097152x1x1 ![] bcast_S_S2097152x1x1) : (⟨S_, .i32⟩ : BufTy).Contents (Elt F) → (⟨S2097152x1x1, .i32⟩ : BufTy).Contents (Elt F)),
    binary main_call1_v5 main_call1_v6 main_call1_v7 ((cmpi .sge) : (⟨S2097152x1x1, .i32⟩ : BufTy).Contents (Elt F) → (⟨S2097152x1x1, .i32⟩ : BufTy).Contents (Elt F) → (⟨S2097152x1x1, .i1⟩ : BufTy).Contents (Elt F)),
    unary main_call1_c_1 main_call1_v8 ((broadcastInDim S1x1x1 ![2] bcast_S1_S1x1x1_2) : (⟨S1, .i32⟩ : BufTy).Contents (Elt F) → (⟨S1x1x1, .i32⟩ : BufTy).Contents (Elt F)),
    unary main_call1_v8 main_call1_v9 ((broadcastInDim S2097152x1x1 ![0, 1, 2] bcast_S1x1x1_S2097152x1x1_0_1_2) : (⟨S1x1x1, .i32⟩ : BufTy).Contents (Elt F) → (⟨S2097152x1x1, .i32⟩ : BufTy).Contents (Elt F)),
    binary main_call1_v5 main_call1_v9 main_call1_v10 ((cmpi .sle) : (⟨S2097152x1x1, .i32⟩ : BufTy).Contents (Elt F) → (⟨S2097152x1x1, .i32⟩ : BufTy).Contents (Elt F) → (⟨S2097152x1x1, .i1⟩ : BufTy).Contents (Elt F)),
    binary main_call1_v7 main_call1_v10 main_call1_v11 (andi : (⟨S2097152x1x1, .i1⟩ : BufTy).Contents (Elt F) → (⟨S2097152x1x1, .i1⟩ : BufTy).Contents (Elt F) → (⟨S2097152x1x1, .i1⟩ : BufTy).Contents (Elt F)),
    nullary main_call1_c_3 (constantI S_ 1 1#1 : (⟨S_, .i1⟩ : BufTy).Contents (Elt F)),
    binary main_call1_v11 main_call1_c_3 main_call1_v12 ((fun x v => Host.reduce IntOp.andi x v reducesTo_S2097152x1x1_S2097152x1_d2 h_S_) : (⟨S2097152x1x1, .i1⟩ : BufTy).Contents (Elt F) → (⟨S_, .i1⟩ : BufTy).Contents (Elt F) → (⟨S2097152x1, .i1⟩ : BufTy).Contents (Elt F)),
    binary main_v0 main_call1_v5 main_call1_v13 ((fun x i => Host.gather gather_S2097152x20_S2097152x1x1_S2097152x1_n_1_0_0_1_2_11 x i) : (⟨S2097152x20, .f32⟩ : BufTy).Contents (Elt F) → (⟨S2097152x1x1, .i32⟩ : BufTy).Contents (Elt F) → (⟨S2097152x1, .f32⟩ : BufTy).Contents (Elt F)),
    nullary main_call1_cst (constant S_ .f32 0x7FC00000#32 : (⟨S_, .f32⟩ : BufTy).Contents (Elt F)),
    unary main_call1_cst main_call1_v14 ((broadcastInDim S2097152x1 ![] bcast_S_S2097152x1) : (⟨S_, .f32⟩ : BufTy).Contents (Elt F) → (⟨S2097152x1, .f32⟩ : BufTy).Contents (Elt F)),
    ternary main_call1_v12 main_call1_v13 main_call1_v14 main_v2 (select : (⟨S2097152x1, .i1⟩ : BufTy).Contents (Elt F) → (⟨S2097152x1, .f32⟩ : BufTy).Contents (Elt F) → (⟨S2097152x1, .f32⟩ : BufTy).Contents (Elt F) → (⟨S2097152x1, .f32⟩ : BufTy).Contents (Elt F)),
    reshape main_v2 main_v3 rfl shapeCasts_S2097152x1_S2097152,
    unary main_v3 main_v4 (Host.negf : (⟨S2097152, .f32⟩ : BufTy).Contents (Elt F) → (⟨S2097152, .f32⟩ : BufTy).Contents (Elt F)) ]

theorem opsB_eq : (opsBT : List (HloOp τ sig (Elt F))) = opsB := by
  unfold opsBT opsB
  simp only [TRef.nullary, TRef.unary, TRef.binary, TRef.ternary, TRef.reshape, TRef.toBuf, TRef.ofBuf, cast_eq]
  rfl

/-- The class-weight take and the weighted negative log-likelihood: ten operations. -/
abbrev opsC : List (HloOp τ sig (Elt F)) :=
  [ nullary main_c (constantI S_ 32 0#32),
    unary main_c main_v5 (broadcastInDim S2097152 ![] bcast_S_S2097152 : (⟨S_, .i32⟩ : BufTy).Contents (Elt F) → (⟨S2097152, .i32⟩ : BufTy).Contents (Elt F)),
    binary main_arg6 main_v5 main_v6 (cmpi .slt : (⟨S2097152, .i32⟩ : BufTy).Contents (Elt F) → (⟨S2097152, .i32⟩ : BufTy).Contents (Elt F) → (⟨S2097152, .i1⟩ : BufTy).Contents (Elt F)),
    nullary main_c_0 (constantI S_ 32 20#32),
    unary main_c_0 main_v7 (broadcastInDim S2097152 ![] bcast_S_S2097152 : (⟨S_, .i32⟩ : BufTy).Contents (Elt F) → (⟨S2097152, .i32⟩ : BufTy).Contents (Elt F)),
    binary main_arg6 main_v7 main_v8 (addi : (⟨S2097152, .i32⟩ : BufTy).Contents (Elt F) → (⟨S2097152, .i32⟩ : BufTy).Contents (Elt F) → (⟨S2097152, .i32⟩ : BufTy).Contents (Elt F)),
    ternary main_v6 main_v8 main_arg6 main_v9 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v9 main_v10 (broadcastInDim S2097152x1 ![0] bcast_S2097152_S2097152x1_0 : (⟨S2097152, .i32⟩ : BufTy).Contents (Elt F) → (⟨S2097152x1, .i32⟩ : BufTy).Contents (Elt F)),
    binary main_arg2 main_v10 main_v11 ((fun x i => Host.gather gather_S20_S2097152x1_S2097152_n_0_n_n_0_1_1 x i) : (⟨S20, .f32⟩ : BufTy).Contents (Elt F) → (⟨S2097152x1, .i32⟩ : BufTy).Contents (Elt F) → (⟨S2097152, .f32⟩ : BufTy).Contents (Elt F)),
    binary main_v4 main_v11 main_v12 (mulf : (⟨S2097152, .f32⟩ : BufTy).Contents (Elt F) → (⟨S2097152, .f32⟩ : BufTy).Contents (Elt F) → (⟨S2097152, .f32⟩ : BufTy).Contents (Elt F)) ]

/-- The takes of the mode, the bottom threshold and the maximal weight: twenty-seven operations. -/
abbrev opsD : List (HloOp τ sig (Elt F)) :=
  [ nullary main_c_1 (constantI S_ 32 0#32),
    unary main_c_1 main_v13 (broadcastInDim S2097152 ![] bcast_S_S2097152 : (⟨S_, .i32⟩ : BufTy).Contents (Elt F) → (⟨S2097152, .i32⟩ : BufTy).Contents (Elt F)),
    binary main_arg6 main_v13 main_v14 (cmpi .slt : (⟨S2097152, .i32⟩ : BufTy).Contents (Elt F) → (⟨S2097152, .i32⟩ : BufTy).Contents (Elt F) → (⟨S2097152, .i1⟩ : BufTy).Contents (Elt F)),
    nullary main_c_2 (constantI S_ 32 20#32),
    unary main_c_2 main_v15 (broadcastInDim S2097152 ![] bcast_S_S2097152 : (⟨S_, .i32⟩ : BufTy).Contents (Elt F) → (⟨S2097152, .i32⟩ : BufTy).Contents (Elt F)),
    binary main_arg6 main_v15 main_v16 (addi : (⟨S2097152, .i32⟩ : BufTy).Contents (Elt F) → (⟨S2097152, .i32⟩ : BufTy).Contents (Elt F) → (⟨S2097152, .i32⟩ : BufTy).Contents (Elt F)),
    ternary main_v14 main_v16 main_arg6 main_v17 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v17 main_v18 (broadcastInDim S2097152x1 ![0] bcast_S2097152_S2097152x1_0 : (⟨S2097152, .i32⟩ : BufTy).Contents (Elt F) → (⟨S2097152x1, .i32⟩ : BufTy).Contents (Elt F)),
    binary main_arg3 main_v18 main_v19 ((fun x i => Host.gather gather_S20_S2097152x1_S2097152_n_0_n_n_0_1_1 x i) : (⟨S20, .f32⟩ : BufTy).Contents (Elt F) → (⟨S2097152x1, .i32⟩ : BufTy).Contents (Elt F) → (⟨S2097152, .f32⟩ : BufTy).Contents (Elt F)),
    nullary main_c_3 (constantI S_ 32 0#32),
    unary main_c_3 main_v20 (broadcastInDim S2097152 ![] bcast_S_S2097152 : (⟨S_, .i32⟩ : BufTy).Contents (Elt F) → (⟨S2097152, .i32⟩ : BufTy).Contents (Elt F)),
    binary main_arg6 main_v20 main_v21 (cmpi .slt : (⟨S2097152, .i32⟩ : BufTy).Contents (Elt F) → (⟨S2097152, .i32⟩ : BufTy).Contents (Elt F) → (⟨S2097152, .i1⟩ : BufTy).Contents (Elt F)),
    nullary main_c_4 (constantI S_ 32 20#32),
    unary main_c_4 main_v22 (broadcastInDim S2097152 ![] bcast_S_S2097152 : (⟨S_, .i32⟩ : BufTy).Contents (Elt F) → (⟨S2097152, .i32⟩ : BufTy).Contents (Elt F)),
    binary main_arg6 main_v22 main_v23 (addi : (⟨S2097152, .i32⟩ : BufTy).Contents (Elt F) → (⟨S2097152, .i32⟩ : BufTy).Contents (Elt F) → (⟨S2097152, .i32⟩ : BufTy).Contents (Elt F)),
    ternary main_v21 main_v23 main_arg6 main_v24 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v24 main_v25 (broadcastInDim S2097152x1 ![0] bcast_S2097152_S2097152x1_0 : (⟨S2097152, .i32⟩ : BufTy).Contents (Elt F) → (⟨S2097152x1, .i32⟩ : BufTy).Contents (Elt F)),
    binary main_arg4 main_v25 main_v26 ((fun x i => Host.gather gather_S20_S2097152x1_S2097152_n_0_n_n_0_1_1 x i) : (⟨S20, .f32⟩ : BufTy).Contents (Elt F) → (⟨S2097152x1, .i32⟩ : BufTy).Contents (Elt F) → (⟨S2097152, .f32⟩ : BufTy).Contents (Elt F)),
    nullary main_c_5 (constantI S_ 32 0#32),
    unary main_c_5 main_v27 (broadcastInDim S2097152 ![] bcast_S_S2097152 : (⟨S_, .i32⟩ : BufTy).Contents (Elt F) → (⟨S2097152, .i32⟩ : BufTy).Contents (Elt F)),
    binary main_arg6 main_v27 main_v28 (cmpi .slt : (⟨S2097152, .i32⟩ : BufTy).Contents (Elt F) → (⟨S2097152, .i32⟩ : BufTy).Contents (Elt F) → (⟨S2097152, .i1⟩ : BufTy).Contents (Elt F)),
    nullary main_c_6 (constantI S_ 32 20#32),
    unary main_c_6 main_v29 (broadcastInDim S2097152 ![] bcast_S_S2097152 : (⟨S_, .i32⟩ : BufTy).Contents (Elt F) → (⟨S2097152, .i32⟩ : BufTy).Contents (Elt F)),
    binary main_arg6 main_v29 main_v30 (addi : (⟨S2097152, .i32⟩ : BufTy).Contents (Elt F) → (⟨S2097152, .i32⟩ : BufTy).Contents (Elt F) → (⟨S2097152, .i32⟩ : BufTy).Contents (Elt F)),
    ternary main_v28 main_v30 main_arg6 main_v31 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v31 main_v32 (broadcastInDim S2097152x1 ![0] bcast_S2097152_S2097152x1_0 : (⟨S2097152, .i32⟩ : BufTy).Contents (Elt F) → (⟨S2097152x1, .i32⟩ : BufTy).Contents (Elt F)),
    binary main_arg5 main_v32 main_v33 ((fun x i => Host.gather gather_S20_S2097152x1_S2097152_n_0_n_n_0_1_1 x i) : (⟨S20, .f32⟩ : BufTy).Contents (Elt F) → (⟨S2097152x1, .i32⟩ : BufTy).Contents (Elt F) → (⟨S2097152, .f32⟩ : BufTy).Contents (Elt F)) ]

/-- The size weight, the product, the sum over the rows and the division: nineteen operations, as the program spells
    them; -/
abbrev opsET : List (HloOp τ sig (Elt F)) :=
  [ binary main_arg1 main_v26 main_v34 (subf : (⟨S2097152, .f32⟩ : BufTy).Contents (Elt F) → (⟨S2097152, .f32⟩ : BufTy).Contents (Elt F) → (⟨S2097152, .f32⟩ : BufTy).Contents (Elt F)),
    binary main_v19 main_v26 main_v35 (subf : (⟨S2097152, .f32⟩ : BufTy).Contents (Elt F) → (⟨S2097152, .f32⟩ : BufTy).Contents (Elt F) → (⟨S2097152, .f32⟩ : BufTy).Contents (Elt F)),
    binary main_v34 main_v35 main_v36 (Host.divf : (⟨S2097152, .f32⟩ : BufTy).Contents (Elt F) → (⟨S2097152, .f32⟩ : BufTy).Contents (Elt F) → (⟨S2097152, .f32⟩ : BufTy).Contents (Elt F)),
    nullary main_cst (constant S_ .f32 0x3F800000#32),
    unary main_cst main_v37 (broadcastInDim S2097152 ![] bcast_S_S2097152 : (⟨S_, .f32⟩ : BufTy).Contents (Elt F) → (⟨S2097152, .f32⟩ : BufTy).Contents (Elt F)),
    binary main_v33 main_v37 main_v38 (subf : (⟨S2097152, .f32⟩ : BufTy).Contents (Elt F) → (⟨S2097152, .f32⟩ : BufTy).Contents (Elt F) → (⟨S2097152, .f32⟩ : BufTy).Contents (Elt F)),
    binary main_v36 main_v38 main_v39 (mulf : (⟨S2097152, .f32⟩ : BufTy).Contents (Elt F) → (⟨S2097152, .f32⟩ : BufTy).Contents (Elt F) → (⟨S2097152, .f32⟩ : BufTy).Contents (Elt F)),
    binary main_v33 main_v39 main_v40 (subf : (⟨S2097152, .f32⟩ : BufTy).Contents (Elt F) → (⟨S2097152, .f32⟩ : BufTy).Contents (Elt F) → (⟨S2097152, .f32⟩ : BufTy).Contents (Elt F)),
    binary main_arg1 main_v19 main_v41 (cmpf .olt : (⟨S2097152, .f32⟩ : BufTy).Contents (Elt F) → (⟨S2097152, .f32⟩ : BufTy).Contents (Elt F) → (⟨S2097152, .i1⟩ : BufTy).Contents (Elt F)),
    binary main_arg1 main_v26 main_v42 (cmpf .olt : (⟨S2097152, .f32⟩ : BufTy).Contents (Elt F) → (⟨S2097152, .f32⟩ : BufTy).Contents (Elt F) → (⟨S2097152, .i1⟩ : BufTy).Contents (Elt F)),
    TRef.ternary (TRef.of (T := ⟨S2097152, .i1⟩) main_v42) (TRef.of (T := ⟨S2097152, .f32⟩) main_v33) (TRef.of (T := ⟨S2097152, .f32⟩) main_v40) (TRef.of (T := ⟨S2097152, .f32⟩) main_v43) select,
    nullary main_cst_7 (constant S_ .f32 0x3F800000#32),
    unary main_cst_7 main_v44 (broadcastInDim S2097152 ![] bcast_S_S2097152 : (⟨S_, .f32⟩ : BufTy).Contents (Elt F) → (⟨S2097152, .f32⟩ : BufTy).Contents (Elt F)),
    TRef.ternary (TRef.of (T := ⟨S2097152, .i1⟩) main_v41) (TRef.of (T := ⟨S2097152, .f32⟩) main_v43) (TRef.of (T := ⟨S2097152, .f32⟩) main_v44) (TRef.of (T := ⟨S2097152, .f32⟩) main_v45) select,
    binary main_v12 main_v45 main_v46 (mulf : (⟨S2097152, .f32⟩ : BufTy).Contents (Elt F) → (⟨S2097152, .f32⟩ : BufTy).Contents (Elt F) → (⟨S2097152, .f32⟩ : BufTy).Contents (Elt F)),
    nullary main_cst_8 (constant S_ .f32 0x00000000#32),
    binary main_v46 main_cst_8 main_v47 ((fun x v => Host.reduceAdd x v reducesTo_S2097152_S_d0 h_S_) : (⟨S2097152, .f32⟩ : BufTy).Contents (Elt F) → (⟨S_, .f32⟩ : BufTy).Contents (Elt F) → (⟨S_, .f32⟩ : BufTy).Contents (Elt F)),
    nullary main_cst_9 (constant S_ .f32 0x4A000000#32),
    binary main_v47 main_cst_9 main_v48 (Host.divf : (⟨S_, .f32⟩ : BufTy).Contents (Elt F) → (⟨S_, .f32⟩ : BufTy).Contents (Elt F) → (⟨S_, .f32⟩ : BufTy).Contents (Elt F)) ]

/-- and over the buffers themselves. -/
abbrev opsE : List (HloOp τ sig (Elt F)) :=
  [ binary main_arg1 main_v26 main_v34 (subf : (⟨S2097152, .f32⟩ : BufTy).Contents (Elt F) → (⟨S2097152, .f32⟩ : BufTy).Contents (Elt F) → (⟨S2097152, .f32⟩ : BufTy).Contents (Elt F)),
    binary main_v19 main_v26 main_v35 (subf : (⟨S2097152, .f32⟩ : BufTy).Contents (Elt F) → (⟨S2097152, .f32⟩ : BufTy).Contents (Elt F) → (⟨S2097152, .f32⟩ : BufTy).Contents (Elt F)),
    binary main_v34 main_v35 main_v36 (Host.divf : (⟨S2097152, .f32⟩ : BufTy).Contents (Elt F) → (⟨S2097152, .f32⟩ : BufTy).Contents (Elt F) → (⟨S2097152, .f32⟩ : BufTy).Contents (Elt F)),
    nullary main_cst (constant S_ .f32 0x3F800000#32),
    unary main_cst main_v37 (broadcastInDim S2097152 ![] bcast_S_S2097152 : (⟨S_, .f32⟩ : BufTy).Contents (Elt F) → (⟨S2097152, .f32⟩ : BufTy).Contents (Elt F)),
    binary main_v33 main_v37 main_v38 (subf : (⟨S2097152, .f32⟩ : BufTy).Contents (Elt F) → (⟨S2097152, .f32⟩ : BufTy).Contents (Elt F) → (⟨S2097152, .f32⟩ : BufTy).Contents (Elt F)),
    binary main_v36 main_v38 main_v39 (mulf : (⟨S2097152, .f32⟩ : BufTy).Contents (Elt F) → (⟨S2097152, .f32⟩ : BufTy).Contents (Elt F) → (⟨S2097152, .f32⟩ : BufTy).Contents (Elt F)),
    binary main_v33 main_v39 main_v40 (subf : (⟨S2097152, .f32⟩ : BufTy).Contents (Elt F) → (⟨S2097152, .f32⟩ : BufTy).Contents (Elt F) → (⟨S2097152, .f32⟩ : BufTy).Contents (Elt F)),
    binary main_arg1 main_v19 main_v41 (cmpf .olt : (⟨S2097152, .f32⟩ : BufTy).Contents (Elt F) → (⟨S2097152, .f32⟩ : BufTy).Contents (Elt F) → (⟨S2097152, .i1⟩ : BufTy).Contents (Elt F)),
    binary main_arg1 main_v26 main_v42 (cmpf .olt : (⟨S2097152, .f32⟩ : BufTy).Contents (Elt F) → (⟨S2097152, .f32⟩ : BufTy).Contents (Elt F) → (⟨S2097152, .i1⟩ : BufTy).Contents (Elt F)),
    ternary main_v42 main_v33 main_v40 main_v43 (select : (⟨S2097152, .i1⟩ : BufTy).Contents (Elt F) → (⟨S2097152, .f32⟩ : BufTy).Contents (Elt F) → (⟨S2097152, .f32⟩ : BufTy).Contents (Elt F) → (⟨S2097152, .f32⟩ : BufTy).Contents (Elt F)),
    nullary main_cst_7 (constant S_ .f32 0x3F800000#32),
    unary main_cst_7 main_v44 (broadcastInDim S2097152 ![] bcast_S_S2097152 : (⟨S_, .f32⟩ : BufTy).Contents (Elt F) → (⟨S2097152, .f32⟩ : BufTy).Contents (Elt F)),
    ternary main_v41 main_v43 main_v44 main_v45 (select : (⟨S2097152, .i1⟩ : BufTy).Contents (Elt F) → (⟨S2097152, .f32⟩ : BufTy).Contents (Elt F) → (⟨S2097152, .f32⟩ : BufTy).Contents (Elt F) → (⟨S2097152, .f32⟩ : BufTy).Contents (Elt F)),
    binary main_v12 main_v45 main_v46 (mulf : (⟨S2097152, .f32⟩ : BufTy).Contents (Elt F) → (⟨S2097152, .f32⟩ : BufTy).Contents (Elt F) → (⟨S2097152, .f32⟩ : BufTy).Contents (Elt F)),
    nullary main_cst_8 (constant S_ .f32 0x00000000#32),
    binary main_v46 main_cst_8 main_v47 ((fun x v => Host.reduceAdd x v reducesTo_S2097152_S_d0 h_S_) : (⟨S2097152, .f32⟩ : BufTy).Contents (Elt F) → (⟨S_, .f32⟩ : BufTy).Contents (Elt F) → (⟨S_, .f32⟩ : BufTy).Contents (Elt F)),
    nullary main_cst_9 (constant S_ .f32 0x4A000000#32),
    binary main_v47 main_cst_9 main_v48 (Host.divf : (⟨S_, .f32⟩ : BufTy).Contents (Elt F) → (⟨S_, .f32⟩ : BufTy).Contents (Elt F) → (⟨S_, .f32⟩ : BufTy).Contents (Elt F)) ]

theorem opsE_eq : (opsET : List (HloOp τ sig (Elt F))) = opsE := by
  unfold opsET opsE
  simp only [TRef.nullary, TRef.unary, TRef.binary, TRef.ternary, TRef.reshape, TRef.toBuf, TRef.ofBuf, cast_eq]

set_option maxRecDepth 8192 in
/-- The line is the five stretches in order. -/
theorem ops_splitT : (ops : List (HloOp τ sig (Elt F))) = opsAT ++ (opsBT ++ (opsC ++ (opsD ++ opsET))) := rfl

theorem ops_split : (ops : List (HloOp τ sig (Elt F))) = opsA ++ (opsB ++ (opsC ++ (opsD ++ opsE))) := by
  rw [ops_splitT, opsA_eq, opsB_eq, opsE_eq]

/-! ## The stretches -/

theorem stageA (V : Valuation τ sig (Elt F)) (x0 : (⟨S2097152x20, .f32⟩ : BufTy).Contents (Elt F))
    (h0 : V (Proc.devRef .tc main_arg0) = x0) :
    after opsA V (Proc.devRef .tc main_v0) = val_main_v0 (F := F) x0 := by
  after_results_simp
  rw [h0]
  rfl

theorem keepA (V : Valuation τ sig (Elt F)) :
    after opsA V (Proc.devRef .tc main_arg1) = V (Proc.devRef .tc main_arg1) ∧ after opsA V (Proc.devRef .tc main_arg2) = V (Proc.devRef .tc main_arg2)
    ∧ after opsA V (Proc.devRef .tc main_arg3) = V (Proc.devRef .tc main_arg3) ∧ after opsA V (Proc.devRef .tc main_arg4) = V (Proc.devRef .tc main_arg4)
    ∧ after opsA V (Proc.devRef .tc main_arg5) = V (Proc.devRef .tc main_arg5) ∧ after opsA V (Proc.devRef .tc main_arg6) = V (Proc.devRef .tc main_arg6) :=
  ⟨by after_results_simp <;> rfl, by after_results_simp <;> rfl, by after_results_simp <;> rfl, by after_results_simp <;> rfl,
    by after_results_simp <;> rfl, by after_results_simp <;> rfl⟩

theorem stageB (W : Valuation τ sig (Elt F)) (x0 : (⟨S2097152x20, .f32⟩ : BufTy).Contents (Elt F)) (x6 : (⟨S2097152, .i32⟩ : BufTy).Contents (Elt F))
    (h0 : W (Proc.devRef .tc main_v0) = val_main_v0 (F := F) x0) (h6 : W (Proc.devRef .tc main_arg6) = x6) :
    after opsB W (Proc.devRef .tc main_v4) = val_main_v4 (F := F) x0 x6 := by
  after_results_simp
  rw [h0, h6]
  rfl

theorem keepB (W : Valuation τ sig (Elt F)) :
    after opsB W (Proc.devRef .tc main_arg1) = W (Proc.devRef .tc main_arg1) ∧ after opsB W (Proc.devRef .tc main_arg2) = W (Proc.devRef .tc main_arg2)
    ∧ after opsB W (Proc.devRef .tc main_arg3) = W (Proc.devRef .tc main_arg3) ∧ after opsB W (Proc.devRef .tc main_arg4) = W (Proc.devRef .tc main_arg4)
    ∧ after opsB W (Proc.devRef .tc main_arg5) = W (Proc.devRef .tc main_arg5) ∧ after opsB W (Proc.devRef .tc main_arg6) = W (Proc.devRef .tc main_arg6) :=
  ⟨by after_results_simp <;> rfl, by after_results_simp <;> rfl, by after_results_simp <;> rfl, by after_results_simp <;> rfl,
    by after_results_simp <;> rfl, by after_results_simp <;> rfl⟩

theorem stageC (W : Valuation τ sig (Elt F)) (x0 : (⟨S2097152x20, .f32⟩ : BufTy).Contents (Elt F)) (x2 : (⟨S20, .f32⟩ : BufTy).Contents (Elt F)) (x6 : (⟨S2097152, .i32⟩ : BufTy).Contents (Elt F))
    (h4 : W (Proc.devRef .tc main_v4) = val_main_v4 (F := F) x0 x6) (h2 : W (Proc.devRef .tc main_arg2) = x2) (h6 : W (Proc.devRef .tc main_arg6) = x6) :
    after opsC W (Proc.devRef .tc main_v12) = val_main_v12 (F := F) x0 x2 x6 := by
  after_results_simp
  rw [h4, h2, h6]
  rfl

theorem keepC (W : Valuation τ sig (Elt F)) :
    after opsC W (Proc.devRef .tc main_arg1) = W (Proc.devRef .tc main_arg1)
    ∧ after opsC W (Proc.devRef .tc main_arg3) = W (Proc.devRef .tc main_arg3) ∧ after opsC W (Proc.devRef .tc main_arg4) = W (Proc.devRef .tc main_arg4)
    ∧ after opsC W (Proc.devRef .tc main_arg5) = W (Proc.devRef .tc main_arg5) ∧ after opsC W (Proc.devRef .tc main_arg6) = W (Proc.devRef .tc main_arg6) :=
  ⟨by after_results_simp <;> rfl, by after_results_simp <;> rfl, by after_results_simp <;> rfl,
    by after_results_simp <;> rfl, by after_results_simp <;> rfl⟩

theorem stageD19 (W : Valuation τ sig (Elt F)) (x3 : (⟨S20, .f32⟩ : BufTy).Contents (Elt F)) (x6 : (⟨S2097152, .i32⟩ : BufTy).Contents (Elt F))
    (h3 : W (Proc.devRef .tc main_arg3) = x3) (h6 : W (Proc.devRef .tc main_arg6) = x6) :
    after opsD W (Proc.devRef .tc main_v19) = val_main_v19 (F := F) x3 x6 := by
  after_results_simp
  rw [h3, h6]
  rfl

theorem stageD26 (W : Valuation τ sig (Elt F)) (x4 : (⟨S20, .f32⟩ : BufTy).Contents (Elt F)) (x6 : (⟨S2097152, .i32⟩ : BufTy).Contents (Elt F))
    (h4 : W (Proc.devRef .tc main_arg4) = x4) (h6 : W (Proc.devRef .tc main_arg6) = x6) :
    after opsD W (Proc.devRef .tc main_v26) = val_main_v26 (F := F) x4 x6 := by
  after_results_simp
  rw [h4, h6]
  rfl

theorem stageD33 (W : Valuation τ sig (Elt F)) (x5 : (⟨S20, .f32⟩ : BufTy).Contents (Elt F)) (x6 : (⟨S2097152, .i32⟩ : BufTy).Contents (Elt F))
    (h5 : W (Proc.devRef .tc main_arg5) = x5) (h6 : W (Proc.devRef .tc main_arg6) = x6) :
    after opsD W (Proc.devRef .tc main_v33) = val_main_v33 (F := F) x5 x6 := by
  after_results_simp
  rw [h5, h6]
  rfl

theorem keepD (W : Valuation τ sig (Elt F)) :
    after opsD W (Proc.devRef .tc main_arg1) = W (Proc.devRef .tc main_arg1) ∧ after opsD W (Proc.devRef .tc main_v12) = W (Proc.devRef .tc main_v12) :=
  ⟨by after_results_simp <;> rfl, by after_results_simp <;> rfl⟩

theorem stageE (W : Valuation τ sig (Elt F)) (x0 : (⟨S2097152x20, .f32⟩ : BufTy).Contents (Elt F)) (x1 : (⟨S2097152, .f32⟩ : BufTy).Contents (Elt F))
    (x2 x3 x4 x5 : (⟨S20, .f32⟩ : BufTy).Contents (Elt F)) (x6 : (⟨S2097152, .i32⟩ : BufTy).Contents (Elt F))
    (h12 : W (Proc.devRef .tc main_v12) = val_main_v12 (F := F) x0 x2 x6) (h19 : W (Proc.devRef .tc main_v19) = val_main_v19 (F := F) x3 x6)
    (h26 : W (Proc.devRef .tc main_v26) = val_main_v26 (F := F) x4 x6) (h33 : W (Proc.devRef .tc main_v33) = val_main_v33 (F := F) x5 x6)
    (h1 : W (Proc.devRef .tc main_arg1) = x1) :
    after opsE W (Proc.devRef .tc main_v48) = val_main_v48 (F := F) x0 x1 x2 x3 x4 x5 x6 := by
  after_results_simp
  rw [h12, h19, h26, h33, h1]
  rfl

/-! ## Joined -/

/-- The result buffer holds the last stage of the arguments' launch contents. -/
theorem bridge (V : Valuation τ sig (Elt F)) :
    after ops V (Proc.devRef .tc main_v48)
      = val_main_v48 (F := F) (V (Proc.devRef .tc main_arg0)) (V (Proc.devRef .tc main_arg1)) (V (Proc.devRef .tc main_arg2)) (V (Proc.devRef .tc main_arg3))
          (V (Proc.devRef .tc main_arg4)) (V (Proc.devRef .tc main_arg5)) (V (Proc.devRef .tc main_arg6)) := by
  rw [ops_split, after_append, after_append, after_append, after_append]
  have kA := keepA V
  have kB := keepB (after opsA V)
  have kC := keepC (after opsB (after opsA V))
  have kD := keepD (after opsC (after opsB (after opsA V)))
  have a6 := kA.2.2.2.2.2
  have b6 := kB.2.2.2.2.2.trans a6
  have c6 := kC.2.2.2.2.trans b6
  have sB := stageB (after opsA V) _ _ (stageA V _ rfl) a6
  have sC := stageC (after opsB (after opsA V)) _ _ _ sB (kB.2.1.trans kA.2.1) b6
  have c3 := kC.2.1.trans (kB.2.2.1.trans kA.2.2.1)
  have c4 := kC.2.2.1.trans (kB.2.2.2.1.trans kA.2.2.2.1)
  have c5 := kC.2.2.2.1.trans (kB.2.2.2.2.1.trans kA.2.2.2.2.1)
  have c1 := kC.1.trans (kB.1.trans kA.1)
  exact stageE _ _ _ _ _ _ _ _ (kD.2.trans sC)
    (stageD19 _ _ _ c3 c6) (stageD26 _ _ _ c4 c6) (stageD33 _ _ _ c5 c6) (kD.1.trans c1)

set_option maxRecDepth 8192 in
set_option maxHeartbeats 38400000 in
/-- The run, read: the result at the last stage of the arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v48)
        = val_main_v48 (F := F) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v48).trans (bridge (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl)⟩)
    (Cert.ReferenceIdeal.Value.run m ρ)

end Cert.ReferenceIdeal.Bridge

end
-- ==== Proof.RefValue.lean ====
/-
  The reference program's result, read stage by stage, is the specification's mean loss.

  Under the precondition that every label word is below twenty, the label is signed-nonnegative, so the wrap of a
  negative label keeps it and the range test passes; each table is then read at the label's class, the batched read
  of the log-softmax row reads its entry at the label's class, the row maximum is the fold of max from the least
  float, and the sum over all rows is the sum over the row numbers.
-/
import proofs.«430509_j38517266710750_4_alg».proof.Proof.RefStages
import proofs.«430509_j38517266710750_4_alg».proof.Proof.Spec
import Idealize.ShloMosaic.PureOps.Ideal.Laws
import Idealize.ShloMosaic.PureOps.Reduce
import Idealize.ShloMosaic.Lib.StableHlo.Predicate
import Idealize.ShloMosaic.Lib.ValueIdx
import Idealize.ShloMosaic.Lib.ValueIdxRank1
import Idealize.ShloMosaic.Lib.ReduceAll
import Idealize.ShloMosaic.Lib.Pipeline.Value

noncomputable section

namespace Cert.RefValue

open Cert.ReferenceIdeal Cert.ReferenceIdeal.Gen Cert.ReferenceIdeal.Read Cert.Spec
open Idealize.ShloMosaic Idealize.ShloMosaic.ValueIdx Idealize.ShloMosaic.StableHlo

/-! ## Label words below twenty -/

/-- A label word below twenty is not signed-negative, so the wrap of a negative label keeps it. -/
theorem wrap_keep {w : BitVec 32} (h : w.toNat < 20) :
    Scalar.select (IntOp.cmpi .slt w 0#32) (IntOp.addi w 20#32) w = w := by
  have hn : ¬ IntOp.cmpi .slt w 0#32 = 1#1 := by
    rw [Predicate.slt_iff_toNat (by omega) (by decide)]
    exact Nat.not_lt_zero _
  exact if_neg hn

/-- A label word below twenty passes the range test 0 ≤ w ≤ 19. -/
theorem range_pass {w : BitVec 32} (h : w.toNat < 20) :
    IntOp.andi (IntOp.cmpi .sge w 0#32) (IntOp.cmpi .sle w 19#32) = 1#1 := by
  rw [IntOp.andi_eq_one]
  refine ⟨(Predicate.sge_iff_toNat (by omega) (by decide)).2 (Nat.zero_le _), (Predicate.sle_iff_toNat (by omega) (by decide)).2 ?_⟩
  show w.toNat ≤ 19
  omega

/-! ## Indices -/

theorem ofFin_eq_ix1 {n : Nat} (k : Fin n) : Shape.Idx.ofFin k = ix1 k := by
  funext d; match d with | ⟨0, _⟩ => rfl

theorem ixP_eq_ix2 {n : Nat} (p : Fin n) : Predicate.ixP p = ix2 p (0 : Fin 1) := by
  funext d; match d with | ⟨0, _⟩ => rfl | ⟨1, _⟩ => rfl

/-! ## The four takes -/

/-- A rank-1 take of a table of twenty at row r reads the table at the class of the index word of row r. -/
theorem take_read (x : S20.Idx → EReal) (idx : IVec S2097152x1 32) (r : Fin 2097152) :
    Host.gather gather_S20_S2097152x1_S2097152_n_0_n_n_0_1_1 x idx (ix1 r) = x (ix1 (clsOf (idx (ix2 r (0 : Fin 1))))) := by
  have h := Predicate.gather_take gather_S20_S2097152x1_S2097152_n_0_n_n_0_1_1 rfl rfl rfl rfl x idx r (by decide)
  have e1 : (Shape.Idx.ofFin r : S2097152.Idx) = ix1 r := ofFin_eq_ix1 r
  rw [e1] at h
  refine h.trans (congrArg x ?_)
  funext d
  match d with
  | ⟨0, _⟩ =>
    exact Fin.ext (by
      show min (idx (Predicate.ixP r)).toInt.toNat (20 - 1) = min (idx (ix2 r (0 : Fin 1))).toInt.toNat (20 - 1)
      rw [ixP_eq_ix2])

/-- The wrapped label column at row r is the label of row r. -/
theorem v10_read (x6 : S2097152.Idx → BitVec 32) (hr : ∀ r : S2097152.Idx, (x6 r).toNat < 20) (r : Fin 2097152) :
    val_main_v10 (F := Ideal) x6 (ix2 r (0 : Fin 1)) = x6 (ix1 r) := by
  rw [val_main_v10_apply, val_main_v9_apply, val_main_v6_apply, val_main_v5_apply, val_main_c_apply, val_main_v8_apply,
    val_main_v7_apply, val_main_c_0_apply]
  have e : idx_main_v10 (ix2 r (0 : Fin 1)) = ix1 r := by funext d; match d with | ⟨0, _⟩ => rfl
  rw [e]
  exact wrap_keep (hr _)

theorem v18_read (x6 : S2097152.Idx → BitVec 32) (hr : ∀ r : S2097152.Idx, (x6 r).toNat < 20) (r : Fin 2097152) :
    val_main_v18 (F := Ideal) x6 (ix2 r (0 : Fin 1)) = x6 (ix1 r) := by
  rw [val_main_v18_apply, val_main_v17_apply, val_main_v14_apply, val_main_v13_apply, val_main_c_1_apply, val_main_v16_apply,
    val_main_v15_apply, val_main_c_2_apply]
  have e : idx_main_v18 (ix2 r (0 : Fin 1)) = ix1 r := by funext d; match d with | ⟨0, _⟩ => rfl
  rw [e]
  exact wrap_keep (hr _)

theorem v25_read (x6 : S2097152.Idx → BitVec 32) (hr : ∀ r : S2097152.Idx, (x6 r).toNat < 20) (r : Fin 2097152) :
    val_main_v25 (F := Ideal) x6 (ix2 r (0 : Fin 1)) = x6 (ix1 r) := by
  rw [val_main_v25_apply, val_main_v24_apply, val_main_v21_apply, val_main_v20_apply, val_main_c_3_apply, val_main_v23_apply,
    val_main_v22_apply, val_main_c_4_apply]
  have e : idx_main_v25 (ix2 r (0 : Fin 1)) = ix1 r := by funext d; match d with | ⟨0, _⟩ => rfl
  rw [e]
  exact wrap_keep (hr _)

theorem v32_read (x6 : S2097152.Idx → BitVec 32) (hr : ∀ r : S2097152.Idx, (x6 r).toNat < 20) (r : Fin 2097152) :
    val_main_v32 (F := Ideal) x6 (ix2 r (0 : Fin 1)) = x6 (ix1 r) := by
  rw [val_main_v32_apply, val_main_v31_apply, val_main_v28_apply, val_main_v27_apply, val_main_c_5_apply, val_main_v30_apply,
    val_main_v29_apply, val_main_c_6_apply]
  have e : idx_main_v32 (ix2 r (0 : Fin 1)) = ix1 r := by funext d; match d with | ⟨0, _⟩ => rfl
  rw [e]
  exact wrap_keep (hr _)

/-- The class weight of row r. -/
theorem v11_read (x2 : S20.Idx → EReal) (x6 : S2097152.Idx → BitVec 32) (hr : ∀ r : S2097152.Idx, (x6 r).toNat < 20)
    (r : Fin 2097152) : val_main_v11 (F := Ideal) x2 x6 (ix1 r) = x2 (ix1 (clsOf (x6 (ix1 r)))) := by
  unfold val_main_v11
  rw [take_read, v10_read x6 hr]

/-- The mode of row r's class. -/
theorem v19_read (x3 : S20.Idx → EReal) (x6 : S2097152.Idx → BitVec 32) (hr : ∀ r : S2097152.Idx, (x6 r).toNat < 20)
    (r : Fin 2097152) : val_main_v19 (F := Ideal) x3 x6 (ix1 r) = x3 (ix1 (clsOf (x6 (ix1 r)))) := by
  unfold val_main_v19
  rw [take_read, v18_read x6 hr]

/-- The bottom threshold of row r's class. -/
theorem v26_read (x4 : S20.Idx → EReal) (x6 : S2097152.Idx → BitVec 32) (hr : ∀ r : S2097152.Idx, (x6 r).toNat < 20)
    (r : Fin 2097152) : val_main_v26 (F := Ideal) x4 x6 (ix1 r) = x4 (ix1 (clsOf (x6 (ix1 r)))) := by
  unfold val_main_v26
  rw [take_read, v25_read x6 hr]

/-- The maximal weight of row r's class. -/
theorem v33_read (x5 : S20.Idx → EReal) (x6 : S2097152.Idx → BitVec 32) (hr : ∀ r : S2097152.Idx, (x6 r).toNat < 20)
    (r : Fin 2097152) : val_main_v33 (F := Ideal) x5 x6 (ix1 r) = x5 (ix1 (clsOf (x6 (ix1 r)))) := by
  unfold val_main_v33
  rw [take_read, v32_read x6 hr]

/-! ## The log-softmax of a row -/

/-- The maximum with the initial value of a fold of max from that value is the fold. -/
theorem max_fold_self {ι : Type} (S : Finset ι) (b : EReal) (f : ι → EReal) : max b (S.fold max b f) = S.fold max b f :=
  max_eq_right ((Finset.le_fold_max _).2 (Or.inl le_rfl))

/-- The row maximum of row r. -/
theorem v2_read (x0 : S2097152x20.Idx → EReal) (r : Fin 2097152) :
    val_main_call0_v2 (F := Ideal) x0 (ix1 r) = rowMax (fun k => x0 (ix2 r k)) := by
  have hR : S2097152x20.Reduces [1] S2097152 := by decide
  rw [val_main_call0_v2_apply, val_main_call0_v1_apply, val_main_call0_cst_0_apply]
  unfold val_main_call0_v0
  rw [Host.reduce_eq_fold_single (α := EReal) (FloatOps.maximumf (F := Ideal) (φ := .f32)) x0 (val_main_call0_cst (F := Ideal)) reducesTo_S2097152x20_S2097152_d1 hR h_S_ (ix1 r)]
  have hl : (x0 ∘ hR.lift (ix1 r)) = fun k : Fin 20 => x0 (ix2 r k) := by
    funext k
    refine congrArg x0 ?_
    funext d
    match d with
    | ⟨0, _⟩ => exact Fin.ext rfl
    | ⟨1, _⟩ => exact Fin.ext rfl
  rw [hl]
  exact max_fold_self _ _ _

/-- The shifted logit of row r at class c. -/
theorem v5_read (x0 : S2097152x20.Idx → EReal) (r : Fin 2097152) (c : Fin 20) :
    val_main_call0_v5 (F := Ideal) x0 (ix2 r c) = x0 (ix2 r c) - rowMax (fun k => x0 (ix2 r k)) := by
  rw [val_main_call0_v5_apply, val_main_call0_v4_apply, val_main_call0_v3_apply]
  have e : idx_main_call0_v3 (idx_main_call0_v4 (ix2 r c)) = ix1 r := by funext d; match d with | ⟨0, _⟩ => rfl
  rw [e, v2_read]
  rfl

/-- The log-softmax entry of row r at class c. -/
theorem v0_read (x0 : S2097152x20.Idx → EReal) (r : Fin 2097152) (c : Fin 20) :
    val_main_v0 (F := Ideal) x0 (ix2 r c) = logp (fun k => x0 (ix2 r k)) c := by
  rw [val_main_v0_apply, val_main_call0_v10_apply, val_main_call0_v9_apply, val_main_call0_v8_apply,
    val_main_call0_v7_apply, val_main_call0_cst_1_apply, v5_read]
  have e : idx_main_call0_v8 (idx_main_call0_v10 (ix2 r c)) = ix1 r := by funext d; match d with | ⟨0, _⟩ => rfl
  rw [e]
  have hs : ∀ k : Fin 20, val_main_call0_v6 (F := Ideal) x0 (idx_main_call0_v7 (ix1 r) k)
      = Ideal.exp (x0 (ix2 r k) - rowMax (fun k => x0 (ix2 r k))) := by
    intro k
    have ek : idx_main_call0_v7 (ix1 r) k = ix2 r k := by
      funext d; match d with | ⟨0, _⟩ => rfl | ⟨1, _⟩ => rfl
    rw [ek, val_main_call0_v6_apply, v5_read]
    rfl
  rw [Finset.sum_congr rfl (fun k _ => hs k)]
  show (x0 (ix2 r c) - rowMax (fun k => x0 (ix2 r k))) - Ideal.log (Ideal.ofBits .f32 0x00000000#32 + ∑ k : Fin 20, Ideal.exp (x0 (ix2 r k) - rowMax (fun k => x0 (ix2 r k)))) = _
  rw [Ideal.ofBits_zero_f32, zero_add]
  rfl

/-! ## The range test and the batched read -/

/-- The wrapped label column of the batched read, at any index, is a label. -/
theorem v5c_read (x6 : S2097152.Idx → BitVec 32) (hr : ∀ r : S2097152.Idx, (x6 r).toNat < 20) (i : S2097152x1x1.Idx) :
    val_main_call1_v5 (F := Ideal) x6 i = x6 (idx_main_v1 (idx_main_call1_v5 i)) := by
  rw [val_main_call1_v5_apply, val_main_call1_v4_apply, val_main_call1_v1_apply, val_main_call1_v3_apply,
    val_main_call1_v0_apply, val_main_call1_c_apply, val_main_call1_v2_apply, val_main_call1_c_0_apply, val_main_v1_apply]
  exact wrap_keep (hr _)

/-- At (r, 0, 0) it is the label of row r. -/
theorem v5c_read_row (x6 : S2097152.Idx → BitVec 32) (hr : ∀ r : S2097152.Idx, (x6 r).toNat < 20) (r : Fin 2097152) :
    val_main_call1_v5 (F := Ideal) x6 (ix3 r (0 : Fin 1) (0 : Fin 1)) = x6 (ix1 r) := by
  rw [v5c_read x6 hr]
  refine congrArg x6 ?_
  funext d
  match d with
  | ⟨0, _⟩ => exact Fin.ext (by show ((r.val * 1 + 0) * 1 + 0) / 1 = r.val; omega)

/-- A fold of and from one over words that are all one is one. -/
theorem fold_andi_one {ι : Type} (S : Finset ι) (f : ι → BitVec 1) (h : ∀ i ∈ S, f i = 1#1) :
    S.fold IntOp.andi 1#1 f = 1#1 := by
  induction S using Finset.cons_induction with
  | empty => rfl
  | cons a S ha ih =>
    rw [Finset.fold_cons, h a (Finset.mem_cons_self a S), ih (fun i hi => h i (Finset.mem_cons.2 (Or.inr hi)))]
    rfl

/-- Every label passes the range test, so the test reduced over its last axis is one everywhere. -/
theorem v12_one (x6 : S2097152.Idx → BitVec 32) (hr : ∀ r : S2097152.Idx, (x6 r).toNat < 20) (j : S2097152x1.Idx) :
    val_main_call1_v12 (F := Ideal) x6 j = 1#1 := by
  unfold val_main_call1_v12
  rw [Host.reduce_eq_fold]
  refine fold_andi_one _ _ (fun i _ => ?_)
  rw [val_main_call1_v11_apply, val_main_call1_v7_apply, val_main_call1_v10_apply, val_main_call1_v6_apply,
    val_main_call1_c_2_apply, val_main_call1_v9_apply, val_main_call1_v8_apply, val_main_call1_c_1_apply, v5c_read x6 hr]
  exact range_pass (hr _)

/-- The batched read: at (r, 0) it reads row r of the operand at the class of the index word at (r, 0, 0). -/
theorem gather_row (x : S2097152x20.Idx → EReal) (idx : IVec S2097152x1x1 32) (r : Fin 2097152) :
    Host.gather gather_S2097152x20_S2097152x1x1_S2097152x1_n_1_0_0_1_2_11 x idx (ix2 r (0 : Fin 1))
      = x (ix2 r (clsOf (idx (ix3 r (0 : Fin 1) (0 : Fin 1))))) := by
  -- axis 0 is the batching axis: the result's row
  have h0 : (gather_S2097152x20_S2097152x1x1_S2097152x1_n_1_0_0_1_2_11.operandIdx (ix2 r (0 : Fin 1)) idx (0 : Fin 2)).val = r.val := by
    have hm : (0 : Fin 2) ∉ gather_S2097152x20_S2097152x1x1_S2097152x1_n_1_0_0_1_2_11.startIndexMap := by decide
    have hb : (0 : Fin 2) ∈ gather_S2097152x20_S2097152x1x1_S2097152x1_n_1_0_0_1_2_11.operandBatchingDims := by decide
    have hk : (0 : Fin 2) ∉ gather_S2097152x20_S2097152x1x1_S2097152x1_n_1_0_0_1_2_11.sKept := by decide
    simp only [GatherDims.operandIdx, GatherDims.start, dif_neg hm, GatherDims.offCoord_eq_zero _ _ _ hk, Nat.zero_add, Nat.add_zero]
    unfold GatherDims.batchCoord
    rw [dif_pos hb]
    rfl
  -- axis 1 is the collapsed, start-indexed axis: the index word clamped into the twenty classes
  have h1 : (gather_S2097152x20_S2097152x1x1_S2097152x1_n_1_0_0_1_2_11.operandIdx (ix2 r (0 : Fin 1)) idx (1 : Fin 2)).val
      = (clsOf (idx (ix3 r (0 : Fin 1) (0 : Fin 1)))).val := by
    have hm : (1 : Fin 2) ∈ gather_S2097152x20_S2097152x1x1_S2097152x1_n_1_0_0_1_2_11.startIndexMap := by decide
    have hb : (1 : Fin 2) ∉ gather_S2097152x20_S2097152x1x1_S2097152x1_n_1_0_0_1_2_11.operandBatchingDims := by decide
    have hk : (1 : Fin 2) ∉ gather_S2097152x20_S2097152x1x1_S2097152x1_n_1_0_0_1_2_11.sKept := by decide
    simp only [GatherDims.operandIdx, GatherDims.batchCoord_eq_zero _ _ _ hb, GatherDims.offCoord_eq_zero _ _ _ hk, Nat.add_zero,
      GatherDims.start, dif_pos hm]
    show min (idx _).toInt.toNat (20 - 1) = min (idx (ix3 r (0 : Fin 1) (0 : Fin 1))).toInt.toNat (20 - 1)
    refine congrArg (fun i => min (idx i).toInt.toNat (20 - 1)) ?_
    funext b
    match b with
    | ⟨0, _⟩ => exact Fin.ext rfl
    | ⟨1, _⟩ => exact Fin.ext rfl
    | ⟨2, _⟩ => exact Fin.ext rfl
  unfold Host.gather
  refine congrArg x ?_
  funext a
  match a with
  | ⟨0, _⟩ => exact Fin.ext h0
  | ⟨1, _⟩ => exact Fin.ext h1

/-! ## The loss of a row -/

/-- Minus the log-softmax entry of row r at its label's class: the range test passes, so the gathered value is kept. -/
theorem v4_read (x0 : S2097152x20.Idx → EReal) (x6 : S2097152.Idx → BitVec 32) (hr : ∀ r : S2097152.Idx, (x6 r).toNat < 20)
    (r : Fin 2097152) :
    val_main_v4 (F := Ideal) x0 x6 (ix1 r) = -(logp (fun k => x0 (ix2 r k)) (clsOf (x6 (ix1 r)))) := by
  rw [val_main_v4_apply, val_main_v3_apply]
  have e : idx_main_v3 (ix1 r) = ix2 r (0 : Fin 1) := by
    funext d
    match d with
    | ⟨0, _⟩ => exact Fin.ext (Nat.div_one _)
    | ⟨1, _⟩ => rfl
  rw [e, val_main_v2_apply, v12_one x6 hr, select_one]
  unfold val_main_call1_v13
  rw [gather_row, v5c_read_row x6 hr, v0_read]
  rfl

/-- The size weight of row r. -/
theorem v45_read (x1 : S2097152.Idx → EReal) (x3 x4 x5 : S20.Idx → EReal) (x6 : S2097152.Idx → BitVec 32)
    (hr : ∀ r : S2097152.Idx, (x6 r).toNat < 20) (r : Fin 2097152) :
    val_main_v45 (F := Ideal) x1 x3 x4 x5 x6 (ix1 r)
      = sizeW (x1 (ix1 r)) (x3 (ix1 (clsOf (x6 (ix1 r))))) (x4 (ix1 (clsOf (x6 (ix1 r))))) (x5 (ix1 (clsOf (x6 (ix1 r))))) := by
  rw [val_main_v45_apply, val_main_v41_apply, val_main_v43_apply, val_main_v42_apply, val_main_v40_apply, val_main_v39_apply,
    val_main_v36_apply, val_main_v34_apply, val_main_v35_apply, val_main_v38_apply, val_main_v37_apply, val_main_cst_apply,
    val_main_v44_apply, val_main_cst_7_apply, v19_read x3 x6 hr, v26_read x4 x6 hr, v33_read x5 x6 hr]
  rfl

/-- The weighted loss of row r. -/
theorem v46_read (x0 : S2097152x20.Idx → EReal) (x1 : S2097152.Idx → EReal) (x2 x3 x4 x5 : S20.Idx → EReal)
    (x6 : S2097152.Idx → BitVec 32) (hr : ∀ r : S2097152.Idx, (x6 r).toNat < 20) (r : Fin 2097152) :
    val_main_v46 (F := Ideal) x0 x1 x2 x3 x4 x5 x6 (ix1 r) = lossAt x0 x1 x2 x3 x4 x5 x6 r := by
  rw [val_main_v46_apply, val_main_v12_apply, v4_read x0 x6 hr, v11_read x2 x6 hr, v45_read x1 x3 x4 x5 x6 hr]
  rfl

/-! ## The mean -/

/-- The reference program's result is the mean loss. -/
theorem ref_total (x0 : (⟨S2097152x20, .f32⟩ : BufTy).Contents (Elt Ideal)) (x1 : (⟨S2097152, .f32⟩ : BufTy).Contents (Elt Ideal)) (x2 x3 x4 x5 : (⟨S20, .f32⟩ : BufTy).Contents (Elt Ideal)) (x6 : (⟨S2097152, .i32⟩ : BufTy).Contents (Elt Ideal))
    (hr : ∀ r : S2097152.Idx, (x6 r).toNat < 20) :
    val_main_v48 (F := Ideal) x0 x1 x2 x3 x4 x5 x6 = fun _ => total x0 x1 x2 x3 x4 x5 x6 := by
  funext i
  rw [val_main_v48_apply, val_main_v47_apply, val_main_cst_8_apply, val_main_cst_9_apply]
  -- the sum over the rank-1 index set is the sum over the row numbers
  have hs : ∑ j : S2097152.Idx, val_main_v46 (F := Ideal) x0 x1 x2 x3 x4 x5 x6 j
      = ∑ r : Fin 2097152, lossAt x0 x1 x2 x3 x4 x5 x6 r := by
    refine (Equiv.sum_comp (idxEquiv1 (n := 2097152)).symm _).symm.trans ?_
    exact Finset.sum_congr rfl (fun r _ => v46_read x0 x1 x2 x3 x4 x5 x6 hr r)
  rw [hs]
  show Ideal.div (Ideal.ofBits .f32 0x00000000#32 + ∑ r : Fin 2097152, lossAt x0 x1 x2 x3 x4 x5 x6 r)
    (Ideal.ofBits .f32 0x4A000000#32) = _
  rw [Ideal.ofBits_zero_f32, zero_add]
  rfl

end Cert.RefValue

end
-- ==== Proof.lean ====
/-
  The certificate: a mean of weighted cross-entropy losses computed block by block against its one-pass reference.

  Both programs compute, for each of 2097152 rows of twenty logits with a class label, minus the log-softmax entry at
  the label times the label's class weight times a size weight chosen by the row's area against the label's mode and
  bottom threshold, and return the mean over the rows.  The kernel gathers by summing against the label's one-hot row,
  sums 8192 rows per grid point into a one-entry accumulator over 256 grid points, and divides at the last point; the
  reference gathers by index, sums all rows at once and divides.  Over the extended reals a sum against a one-hot row
  is the entry at the label (zero times anything is zero), and the running sum of the block sums is the sum over all
  rows (addition is associative and commutative), so the two results are one extended real — for labels in [0, 20),
  which the precondition states: outside that range the reference wraps or fills while the kernel's one-hot row is zero.
  The three frames are the generated frame runs (the reference's: its run with the result dropped); the idealization
  rewrote nothing.
-/
import proofs.«430509_j38517266710750_4_alg».proof.Defs
import proofs.«430509_j38517266710750_4_alg».proof.Proof.Gen.Kernel
import proofs.«430509_j38517266710750_4_alg».proof.Proof.Gen.Kernel.Skeleton
import proofs.«430509_j38517266710750_4_alg».proof.Proof.Gen.Kernel.Launch
import proofs.«430509_j38517266710750_4_alg».proof.Proof.Gen.Kernel.Points
import proofs.«430509_j38517266710750_4_alg».proof.Proof.Gen.Kernel.Frame
import proofs.«430509_j38517266710750_4_alg».proof.Proof.Gen.KernelIdeal
import proofs.«430509_j38517266710750_4_alg».proof.Proof.Gen.KernelIdeal.Skeleton
import proofs.«430509_j38517266710750_4_alg».proof.Proof.Gen.KernelIdeal.Launch
import proofs.«430509_j38517266710750_4_alg».proof.Proof.Gen.KernelIdeal.Points
import proofs.«430509_j38517266710750_4_alg».proof.Proof.Gen.KernelIdeal.Frame
import proofs.«430509_j38517266710750_4_alg».proof.Proof.Gen.ReferenceIdeal
import proofs.«430509_j38517266710750_4_alg».proof.Proof.Gen.Pre_finite_inputs
import proofs.«430509_j38517266710750_4_alg».proof.Proof.PreRead
import proofs.«430509_j38517266710750_4_alg».proof.Proof.KerValue
import proofs.«430509_j38517266710750_4_alg».proof.Proof.RefBridge
import proofs.«430509_j38517266710750_4_alg».proof.Proof.RefValue
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame: its run, the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Bridge.run (F := Ideal) m ρ)

/-- Under the precondition every label is a class, so the kernel's result is the mean loss of its arguments and the
    reference's the mean loss of arguments that agree with them. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hr : ∀ (c : Dev Cert.KernelIdeal.nD) r, ((m ((c.tc : Thread Cert.KernelIdeal.nD Cert.KernelIdeal.τ).loc Cert.KernelIdeal.main_arg6)) r).toNat < 20 :=
    fun c => Cert.PreRead.targets_lt _ _ _ _ _ _ _ (hpre c)
  refine ⟨fun c => fun _ => Cert.Spec.total (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.KValue.run m ρ hr, ?_⟩
  refine (θ_run Cert.ReferenceIdeal.defs _ _).mono (fun _ h c => ⟨(h c).1.trans ?_, (h c).2⟩)
    (Cert.ReferenceIdeal.Bridge.run (F := Ideal) m' ρ')
  rw [(hagree c).1, (hagree c).2.1, (hagree c).2.2.1, (hagree c).2.2.2.1, (hagree c).2.2.2.2.1, (hagree c).2.2.2.2.2.1,
    (hagree c).2.2.2.2.2.2]
  exact Cert.RefValue.ref_total _ _ _ _ _ _ _ (hr c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
